-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 80
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v45_2 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S128x128, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_12 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call2_cst : Ref sig .tc := ⟨.hbm, 115, rfl⟩
abbrev main_call2_v0 : Ref sig .tc := ⟨.hbm, 116, rfl⟩
abbrev main_v70 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The mathematics of one graph-convolution block with batch normalisation, stated once, away from both programs.

  A node array `x` (50000 rows of 128 features) is projected twice, `h = x·Wᵀ` and `res = x·res_Wᵀ`. The graph step is
  the same on both sides and is kept as one function of `h` and the edge list (`graphAgg`): self loops are appended to
  the edge list, the in-degree `deg` counts the edges that end at a node, `dinv = deg^(-1/2)` where the degree is
  positive (zero elsewhere), each edge carries the weight `dinv[src]·dinv[dst]`, and `agg` adds the weighted rows
  `h[src]` into the rows `dst`. The pre-activation is `v = agg + res + bias` (the two programs bracket the sum
  differently), its column mean and variance over the 50000 rows normalise it, and the result is
  `max (γ·(v − μ)·(σ² + ε)^(-1/2) + β) 0`. One program forms the variance as the mean of squares minus the squared
  mean and accumulates the column sums tile by tile (25 tiles of 2000 rows); the other as the mean of squared
  deviations over one sum. `kerArr` and `refArr` are those two results, index by index, over the extended reals.
-/
import Idealize.ShloMosaic.PureOps.Ideal
import Idealize.ShloMosaic.Lib.ValueIdx

noncomputable section

namespace Cert.Gcn

open Idealize.ShloMosaic Idealize.ShloMosaic.ValueIdx

/-! ## Shapes and the shape facts the operations take -/

abbrev S50000x128 : Shape := ⟨2, ![50000, 128]⟩
abbrev S128x128 : Shape := ⟨2, ![128, 128]⟩
abbrev S128 : Shape := ⟨1, ![128]⟩
abbrev S1x128 : Shape := ⟨2, ![1, 128]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S_ : Shape := ⟨0, ![]⟩

theorem f_slices0 : S2x800000.Slices ![0, 0] S1x800000 := by decide
theorem f_slices1 : S2x800000.Slices ![1, 0] S1x800000 := by decide
theorem f_casts : S1x800000.ShapeCasts S800000 := by decide
theorem f_cat : Shape.Concatenates [S800000, S50000] S850000 0 := by decide
theorem f_bM : S_.BroadcastsInDim S850000 (![] : Fin 0 → Fin S850000.rank) := by decide
theorem f_bN : S_.BroadcastsInDim S50000 (![] : Fin 0 → Fin S50000.rank) := by decide
theorem f_bcol : S850000.BroadcastsInDim S850000x1 (![0] : Fin 1 → Fin S850000x1.rank) := by decide
theorem f_bMxD : S850000x1.BroadcastsInDim S850000x128 (![0, 1] : Fin 2 → Fin S850000x128.rank) := by decide
theorem f_bNxD : S_.BroadcastsInDim S50000x128 (![] : Fin 0 → Fin S50000x128.rank) := by decide

/-- The degree count: one scalar update per edge, added at its end node. -/
def sdN : ScatterDims S50000 S850000x1 S850000 where
  updateWindowDims := []
  insertedWindowDims := [0]
  scatterDimsToOperandDims := [0]
  indexVectorDim := 1
  wf := by decide
/-- Reading a per-node scalar at an edge's end. -/
def gdN : GatherDims S50000 S850000x1 S850000 where
  offsetDims := []
  collapsedSliceDims := [0]
  operandBatchingDims := []
  startIndicesBatchingDims := []
  startIndexMap := [0]
  indexVectorDim := 1
  sliceSizes := ![1]
  wf := by decide
/-- Reading a node's feature row at an edge's end. -/
def gdNxD : GatherDims S50000x128 S850000x1 S850000x128 where
  offsetDims := [1]
  collapsedSliceDims := [0]
  operandBatchingDims := []
  startIndicesBatchingDims := []
  startIndexMap := [0]
  indexVectorDim := 1
  sliceSizes := ![1, 128]
  wf := by decide
/-- Adding an edge's feature row into its end node's row. -/
def sdNxD : ScatterDims S50000x128 S850000x1 S850000x128 where
  updateWindowDims := [1]
  insertedWindowDims := [0]
  scatterDimsToOperandDims := [0]
  indexVectorDim := 1
  wf := by decide

/-! ## The graph step, as the host operations both programs apply (any float instance) -/

section Chain
variable {F : FTy → Type} [FloatOps F]

/-- Row `r` of the edge list followed by the self loops `0, 1, …, 49999`: the 850000 edge ends of one kind. -/
def endpoints (r : Fin 2 → Nat) (h : S2x800000.Slices r S1x800000) (e : IVec S2x800000 32) : IVec S850000 32 :=
  concatenate S850000 0
    [⟨S800000, fun i => shapeCast S800000 (extractStridedSlice S1x800000 r e h) f_casts i⟩, ⟨S50000, iotaInDim S50000 32 0⟩] f_cat

/-- Edge ends as a column of start indices, a negative one counted from the end. -/
def wrapCol (v : IVec S850000 32) : IVec S850000x1 32 :=
  broadcastInDim S850000x1 ![0] f_bcol
    (select (cmpi .slt v (broadcastInDim S850000 ![] f_bM (constantI S_ 32 0#32)))
      (addi v (broadcastInDim S850000 ![] f_bM (constantI S_ 32 50000#32))) v)

/-- Edge ends as a column of scatter indices, as they are. -/
def col (v : IVec S850000 32) : IVec S850000x1 32 := broadcastInDim S850000x1 ![0] f_bcol v

/-- The in-degree: a one added at every edge's end node. -/
def degOf (dst : IVec S850000 32) : FVec F S50000 .f32 :=
  Host.scatterAdd sdN (broadcastInDim S50000 ![] f_bN (constant S_ .f32 0x00000000#32)) (col dst)
    (broadcastInDim S850000 ![] f_bM (constant S_ .f32 0x3F800000#32))

/-- `deg^(-1/2)` where the degree is positive, zero elsewhere. -/
def dinvOf (deg : FVec F S50000 .f32) : FVec F S50000 .f32 :=
  select (cmpf .ogt deg (broadcastInDim S50000 ![] f_bN (constant S_ .f32 0x00000000#32))) (Host.rsqrt deg)
    (broadcastInDim S50000 ![] f_bN (id (constant S_ .f32 0x00000000#32)))

/-- An edge's weight: the product of `dinv` at its two ends. -/
def normOf (dinv : FVec F S50000 .f32) (src dst : IVec S850000 32) : FVec F S850000 .f32 :=
  mulf (Host.gather gdN dinv (wrapCol src)) (Host.gather gdN dinv (wrapCol dst))

/-- The weighted rows `h[src]` added into the rows `dst` of a zero array. -/
def aggOf (h : FVec F S50000x128 .f32) (src dst : IVec S850000 32) (nrm : FVec F S850000 .f32) : FVec F S50000x128 .f32 :=
  Host.scatterAdd sdNxD (broadcastInDim S50000x128 ![] f_bNxD (constant S_ .f32 0x00000000#32)) (col dst)
    (mulf (Host.gather gdNxD h (wrapCol src))
      (broadcastInDim S850000x128 ![0, 1] f_bMxD (broadcastInDim S850000x1 ![0] f_bcol nrm)))

/-- The edge sources and the edge destinations of an edge list. -/
def srcOf (e : IVec S2x800000 32) : IVec S850000 32 := endpoints ![0, 0] f_slices0 e
def dstOf (e : IVec S2x800000 32) : IVec S850000 32 := endpoints ![1, 0] f_slices1 e

/-- The edge weights of an edge list. -/
def edgeNorm (e : IVec S2x800000 32) : FVec F S850000 .f32 :=
  normOf (dinvOf (degOf (dstOf e))) (srcOf e) (dstOf e)

/-- The whole graph step: the normalised neighbourhood sum of the rows of `h`. -/
def graphAgg (h : FVec F S50000x128 .f32) (e : IVec S2x800000 32) : FVec F S50000x128 .f32 :=
  aggOf h (srcOf e) (dstOf e) (edgeNorm e)

end Chain

/-! ## The two results, index by index, over the extended reals -/

/-- Rows of `x` against rows of `W`: entry `(p, q)` is `∑ₖ x[p,k]·W[q,k]`. -/
def proj (x : S50000x128.Idx → EReal) (W : S128x128.Idx → EReal) : S50000x128.Idx → EReal :=
  fun i => ∑ k : Fin 128, x (ix2 (i 0) k) * W (ix2 (i 1) k)

/-- The literals both programs carry: `ε` of the normalisation, the row count, and zero. -/
def eps : EReal := Ideal.ofBits .f32 0x3727C5AC#32
def cntN : EReal := Ideal.ofBits .f32 0x47435000#32
def zeroF : EReal := Ideal.ofBits .f32 0x00000000#32

/-- The pre-activation as the tiled program brackets it: `(agg + res) + bias`. -/
def preK (agg res : S50000x128.Idx → EReal) (b : S1x128.Idx → EReal) : S50000x128.Idx → EReal :=
  fun i => (agg i + res i) + b (ix2 0 (i 1))
/-- The pre-activation as the other program brackets it: `(agg + bias) + res`. -/
def preR (agg res : S50000x128.Idx → EReal) (b : S128.Idx → EReal) : S50000x128.Idx → EReal :=
  fun i => (agg i + b (ix1 (i 1))) + res i

/-- Row `r` of tile `t` (2000 rows a tile). -/
def rowIdx (t : ℕ) (r : Fin 2000) : Fin 50000 := ⟨(2000 * t + r.val) % 50000, Nat.mod_lt _ (by decide)⟩

/-- A column's sum accumulated tile by tile from zero, after tile `n`. -/
def blockSum (v : S50000x128.Idx → EReal) (q : Fin 128) : ℕ → EReal
  | 0 => zeroF + ∑ r : Fin 2000, v (ix2 (rowIdx 0 r) q)
  | n + 1 => blockSum v q n + ∑ r : Fin 2000, v (ix2 (rowIdx (n + 1) r) q)

/-- A column's sum over all rows. -/
def colSum (v : S50000x128.Idx → EReal) (q : Fin 128) : EReal := ∑ p : Fin 50000, v (ix2 p q)

/-- Normalise, scale, shift, clamp at zero; the column quantities given as one-row arrays. -/
def bn (v : S50000x128.Idx → EReal) (μ σ2 γ β : S1x128.Idx → EReal) : S50000x128.Idx → EReal :=
  fun i => max (γ (ix2 0 (i 1)) * (v i - μ (ix2 0 (i 1))) * Ideal.rsqrt (σ2 (ix2 0 (i 1)) + eps) + β (ix2 0 (i 1))) zeroF

/-- A per-column quantity as a one-row array. -/
def asRow (f : Fin 128 → EReal) : S1x128.Idx → EReal := fun j => f (j 1)

/-- The tiled program's result. -/
def kerArr (x : S50000x128.Idx → EReal) (W : S128x128.Idx → EReal) (b : S128.Idx → EReal) (rW : S128x128.Idx → EReal)
    (γ β : S128.Idx → EReal) (e : IVec S2x800000 32) : S50000x128.Idx → EReal :=
  let v := preK (graphAgg (F := Ideal) (proj x W) e) (proj x rW) (asRow fun q => b (ix1 q))
  let μ : Fin 128 → EReal := fun q => Ideal.div (blockSum v q 24) cntN
  let σ2 : Fin 128 → EReal := fun q => Ideal.div (blockSum (fun i => v i * v i) q 24) cntN - μ q * μ q
  bn v (asRow μ) (asRow σ2) (asRow fun q => γ (ix1 q)) (asRow fun q => β (ix1 q))

/-- The other program's result. -/
def refArr (x : S50000x128.Idx → EReal) (W : S128x128.Idx → EReal) (b : S128.Idx → EReal) (rW : S128x128.Idx → EReal)
    (γ β : S128.Idx → EReal) (e : IVec S2x800000 32) : S50000x128.Idx → EReal :=
  let v := preR (graphAgg (F := Ideal) (proj x W) e) (proj x rW) b
  let μ : Fin 128 → EReal := fun q => Ideal.div (zeroF + colSum v q) cntN
  let σ2 : Fin 128 → EReal := fun q =>
    Ideal.div (zeroF + colSum (fun i => (v i - μ (i 1)) * (v i - μ (i 1))) q) (cntN - (((0 : ℤ) : ℝ) : EReal))
  bn v (asRow μ) (asRow σ2) (asRow fun q => γ (ix1 q)) (asRow fun q => β (ix1 q))

/-- An extended real that is a real number. -/
def IsFin (x : EReal) : Prop := ∃ r : ℝ, x = (r : EReal)

end Cert.Gcn

end
-- ==== Proof.KHost.lean ====
/-
  The host operations of the tiled program, stretch by stretch, read as values: the edge ends and the edge weights
  before the projection region, the weighted neighbourhood sum and the one-row bias between the regions, the column
  mean and variance before the last region. Every stretch is read at an arbitrary entry valuation.
-/
import proofs.«100133_j30202210025887_1_alg».proof.Proof.Gen.KernelIdeal.Launch
import proofs.«100133_j30202210025887_1_alg».proof.Proof.Spec
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-- Each operation's result rewritten at its own buffer and skipped at any other, also inside a concatenate's operands. -/
local macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- A buffer no operation of the stretch writes keeps its contents. -/
local macro "not_written" : tactic =>
  `(tactic| (refine StableHlo.after_of_forall_not_mem _ _ (List.forall_iff_forall_mem.mp (by
      simp only [hostOps0, hostOps0_1, hostOps0_2, hostOps1, hostOps2, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide)))))

/-! ## Before the projection region -/

set_option maxHeartbeats 4000000 in
theorem s0_src (V : Valuation τ sig (Elt F)) :
    StableHlo.after (hostOps0 (F := F)) V (Proc.devRef .tc main_v3) = Gcn.srcOf (V (Proc.devRef .tc main_arg6)) := by
  after_results_simp
  results_rw
  all_goals rfl
set_option maxHeartbeats 4000000 in
theorem s0_dst (V : Valuation τ sig (Elt F)) :
    StableHlo.after (hostOps0 (F := F)) V (Proc.devRef .tc main_v6) = Gcn.dstOf (V (Proc.devRef .tc main_arg6)) := by
  after_results_simp
  results_rw
  all_goals rfl
set_option maxHeartbeats 4000000 in
theorem s0_pos (V : Valuation τ sig (Elt F)) :
    StableHlo.after (hostOps0 (F := F)) V (Proc.devRef .tc main_v12) = cmpf .ogt (Gcn.degOf (F := F) (Gcn.dstOf (V (Proc.devRef .tc main_arg6)))) (broadcastInDim S50000 ![] bcast_S_S50000 (constant S_ .f32 0x00000000#32)) := by
  after_results_simp
  results_rw
  all_goals rfl
set_option maxHeartbeats 4000000 in
theorem s0_rsqrt (V : Valuation τ sig (Elt F)) :
    StableHlo.after (hostOps0 (F := F)) V (Proc.devRef .tc main_v13) = Host.rsqrt (Gcn.degOf (F := F) (Gcn.dstOf (V (Proc.devRef .tc main_arg6)))) := by
  after_results_simp
  results_rw
  all_goals rfl
set_option maxHeartbeats 4000000 in
theorem s0_zero (V : Valuation τ sig (Elt F)) :
    StableHlo.after (hostOps0 (F := F)) V (Proc.devRef .tc main_cst_2) = constant S_ .f32 0x00000000#32 := by
  after_results_simp
  results_rw
  all_goals rfl
set_option maxHeartbeats 4000000 in
theorem s01_dinv (V : Valuation τ sig (Elt F)) :
    StableHlo.after (hostOps0_1 (F := F)) V (Proc.devRef .tc main_v14) = select (V (Proc.devRef .tc main_v12)) (V (Proc.devRef .tc main_v13)) (broadcastInDim S50000 ![] bcast_S_S50000 (id (V (Proc.devRef .tc main_cst_2)))) := by
  after_results_simp
  results_rw
  try simp only [TRef.ofBuf, TRef.toBuf, cast_eq]
  all_goals rfl
theorem s01_src (V : Valuation τ sig (Elt F)) :
    StableHlo.after (hostOps0_1 (F := F)) V (Proc.devRef .tc main_v3) = V (Proc.devRef .tc main_v3) := by
  not_written
theorem s01_dst (V : Valuation τ sig (Elt F)) :
    StableHlo.after (hostOps0_1 (F := F)) V (Proc.devRef .tc main_v6) = V (Proc.devRef .tc main_v6) := by
  not_written
set_option maxHeartbeats 4000000 in
theorem s02_norm (V : Valuation τ sig (Elt F)) :
    StableHlo.after (hostOps0_2 (F := F)) V (Proc.devRef .tc main_v29) = Gcn.normOf (V (Proc.devRef .tc main_v14)) (V (Proc.devRef .tc main_v3)) (V (Proc.devRef .tc main_v6)) := by
  after_results_simp
  results_rw
  all_goals rfl
theorem s02_src (V : Valuation τ sig (Elt F)) :
    StableHlo.after (hostOps0_2 (F := F)) V (Proc.devRef .tc main_v3) = V (Proc.devRef .tc main_v3) := by
  not_written
theorem s02_dst (V : Valuation τ sig (Elt F)) :
    StableHlo.after (hostOps0_2 (F := F)) V (Proc.devRef .tc main_v6) = V (Proc.devRef .tc main_v6) := by
  not_written
theorem s0_arg0 (V : Valuation τ sig (Elt F)) :
    StableHlo.after (hostOps0 (F := F)) V (Proc.devRef .tc main_arg0) = V (Proc.devRef .tc main_arg0) := by
  not_written
theorem s0_arg1 (V : Valuation τ sig (Elt F)) :
    StableHlo.after (hostOps0 (F := F)) V (Proc.devRef .tc main_arg1) = V (Proc.devRef .tc main_arg1) := by
  not_written
theorem s0_arg2 (V : Valuation τ sig (Elt F)) :
    StableHlo.after (hostOps0 (F := F)) V (Proc.devRef .tc main_arg2) = V (Proc.devRef .tc main_arg2) := by
  not_written
theorem s0_arg3 (V : Valuation τ sig (Elt F)) :
    StableHlo.after (hostOps0 (F := F)) V (Proc.devRef .tc main_arg3) = V (Proc.devRef .tc main_arg3) := by
  not_written
theorem s0_arg4 (V : Valuation τ sig (Elt F)) :
    StableHlo.after (hostOps0 (F := F)) V (Proc.devRef .tc main_arg4) = V (Proc.devRef .tc main_arg4) := by
  not_written
theorem s0_arg5 (V : Valuation τ sig (Elt F)) :
    StableHlo.after (hostOps0 (F := F)) V (Proc.devRef .tc main_arg5) = V (Proc.devRef .tc main_arg5) := by
  not_written
theorem s0_arg6 (V : Valuation τ sig (Elt F)) :
    StableHlo.after (hostOps0 (F := F)) V (Proc.devRef .tc main_arg6) = V (Proc.devRef .tc main_arg6) := by
  not_written
theorem s01_arg0 (V : Valuation τ sig (Elt F)) :
    StableHlo.after (hostOps0_1 (F := F)) V (Proc.devRef .tc main_arg0) = V (Proc.devRef .tc main_arg0) := by
  not_written
theorem s01_arg1 (V : Valuation τ sig (Elt F)) :
    StableHlo.after (hostOps0_1 (F := F)) V (Proc.devRef .tc main_arg1) = V (Proc.devRef .tc main_arg1) := by
  not_written
theorem s01_arg2 (V : Valuation τ sig (Elt F)) :
    StableHlo.after (hostOps0_1 (F := F)) V (Proc.devRef .tc main_arg2) = V (Proc.devRef .tc main_arg2) := by
  not_written
theorem s01_arg3 (V : Valuation τ sig (Elt F)) :
    StableHlo.after (hostOps0_1 (F := F)) V (Proc.devRef .tc main_arg3) = V (Proc.devRef .tc main_arg3) := by
  not_written
theorem s01_arg4 (V : Valuation τ sig (Elt F)) :
    StableHlo.after (hostOps0_1 (F := F)) V (Proc.devRef .tc main_arg4) = V (Proc.devRef .tc main_arg4) := by
  not_written
theorem s01_arg5 (V : Valuation τ sig (Elt F)) :
    StableHlo.after (hostOps0_1 (F := F)) V (Proc.devRef .tc main_arg5) = V (Proc.devRef .tc main_arg5) := by
  not_written
theorem s01_arg6 (V : Valuation τ sig (Elt F)) :
    StableHlo.after (hostOps0_1 (F := F)) V (Proc.devRef .tc main_arg6) = V (Proc.devRef .tc main_arg6) := by
  not_written
theorem s02_arg0 (V : Valuation τ sig (Elt F)) :
    StableHlo.after (hostOps0_2 (F := F)) V (Proc.devRef .tc main_arg0) = V (Proc.devRef .tc main_arg0) := by
  not_written
theorem s02_arg1 (V : Valuation τ sig (Elt F)) :
    StableHlo.after (hostOps0_2 (F := F)) V (Proc.devRef .tc main_arg1) = V (Proc.devRef .tc main_arg1) := by
  not_written
theorem s02_arg2 (V : Valuation τ sig (Elt F)) :
    StableHlo.after (hostOps0_2 (F := F)) V (Proc.devRef .tc main_arg2) = V (Proc.devRef .tc main_arg2) := by
  not_written
theorem s02_arg3 (V : Valuation τ sig (Elt F)) :
    StableHlo.after (hostOps0_2 (F := F)) V (Proc.devRef .tc main_arg3) = V (Proc.devRef .tc main_arg3) := by
  not_written
theorem s02_arg4 (V : Valuation τ sig (Elt F)) :
    StableHlo.after (hostOps0_2 (F := F)) V (Proc.devRef .tc main_arg4) = V (Proc.devRef .tc main_arg4) := by
  not_written
theorem s02_arg5 (V : Valuation τ sig (Elt F)) :
    StableHlo.after (hostOps0_2 (F := F)) V (Proc.devRef .tc main_arg5) = V (Proc.devRef .tc main_arg5) := by
  not_written
theorem s02_arg6 (V : Valuation τ sig (Elt F)) :
    StableHlo.after (hostOps0_2 (F := F)) V (Proc.devRef .tc main_arg6) = V (Proc.devRef .tc main_arg6) := by
  not_written
theorem s1_arg0 (V : Valuation τ sig (Elt F)) :
    StableHlo.after (hostOps1 (F := F)) V (Proc.devRef .tc main_arg0) = V (Proc.devRef .tc main_arg0) := by
  not_written
theorem s1_arg1 (V : Valuation τ sig (Elt F)) :
    StableHlo.after (hostOps1 (F := F)) V (Proc.devRef .tc main_arg1) = V (Proc.devRef .tc main_arg1) := by
  not_written
theorem s1_arg2 (V : Valuation τ sig (Elt F)) :
    StableHlo.after (hostOps1 (F := F)) V (Proc.devRef .tc main_arg2) = V (Proc.devRef .tc main_arg2) := by
  not_written
theorem s1_arg3 (V : Valuation τ sig (Elt F)) :
    StableHlo.after (hostOps1 (F := F)) V (Proc.devRef .tc main_arg3) = V (Proc.devRef .tc main_arg3) := by
  not_written
theorem s1_arg4 (V : Valuation τ sig (Elt F)) :
    StableHlo.after (hostOps1 (F := F)) V (Proc.devRef .tc main_arg4) = V (Proc.devRef .tc main_arg4) := by
  not_written
theorem s1_arg5 (V : Valuation τ sig (Elt F)) :
    StableHlo.after (hostOps1 (F := F)) V (Proc.devRef .tc main_arg5) = V (Proc.devRef .tc main_arg5) := by
  not_written
theorem s1_arg6 (V : Valuation τ sig (Elt F)) :
    StableHlo.after (hostOps1 (F := F)) V (Proc.devRef .tc main_arg6) = V (Proc.devRef .tc main_arg6) := by
  not_written
theorem s2_arg0 (V : Valuation τ sig (Elt F)) :
    StableHlo.after (hostOps2 (F := F)) V (Proc.devRef .tc main_arg0) = V (Proc.devRef .tc main_arg0) := by
  not_written
theorem s2_arg1 (V : Valuation τ sig (Elt F)) :
    StableHlo.after (hostOps2 (F := F)) V (Proc.devRef .tc main_arg1) = V (Proc.devRef .tc main_arg1) := by
  not_written
theorem s2_arg2 (V : Valuation τ sig (Elt F)) :
    StableHlo.after (hostOps2 (F := F)) V (Proc.devRef .tc main_arg2) = V (Proc.devRef .tc main_arg2) := by
  not_written
theorem s2_arg3 (V : Valuation τ sig (Elt F)) :
    StableHlo.after (hostOps2 (F := F)) V (Proc.devRef .tc main_arg3) = V (Proc.devRef .tc main_arg3) := by
  not_written
theorem s2_arg4 (V : Valuation τ sig (Elt F)) :
    StableHlo.after (hostOps2 (F := F)) V (Proc.devRef .tc main_arg4) = V (Proc.devRef .tc main_arg4) := by
  not_written
theorem s2_arg5 (V : Valuation τ sig (Elt F)) :
    StableHlo.after (hostOps2 (F := F)) V (Proc.devRef .tc main_arg5) = V (Proc.devRef .tc main_arg5) := by
  not_written
theorem s2_arg6 (V : Valuation τ sig (Elt F)) :
    StableHlo.after (hostOps2 (F := F)) V (Proc.devRef .tc main_arg6) = V (Proc.devRef .tc main_arg6) := by
  not_written

/-! ## Between the projection region and the statistics region -/

set_option maxHeartbeats 4000000 in
theorem s1_agg (V : Valuation τ sig (Elt F)) :
    StableHlo.after (hostOps1 (F := F)) V (Proc.devRef .tc main_v43) = Gcn.aggOf (V (Proc.devRef .tc main_v30_0)) (V (Proc.devRef .tc main_v3)) (V (Proc.devRef .tc main_v6)) (V (Proc.devRef .tc main_v29)) := by
  after_results_simp
  results_rw
  all_goals rfl
set_option maxHeartbeats 4000000 in
theorem s1_bias (V : Valuation τ sig (Elt F)) :
    StableHlo.after (hostOps1 (F := F)) V (Proc.devRef .tc main_v44) = fun i => shapeCast S1x128 (V (Proc.devRef .tc main_arg2)) shapeCasts_S128_S1x128 i := by
  after_results_simp
  results_rw
  all_goals rfl
theorem s1_res (V : Valuation τ sig (Elt F)) :
    StableHlo.after (hostOps1 (F := F)) V (Proc.devRef .tc main_v30_1) = V (Proc.devRef .tc main_v30_1) := by
  not_written

/-! ## Before the normalisation region -/

set_option maxHeartbeats 4000000 in
theorem s2_mean (V : Valuation τ sig (Elt F)) :
    StableHlo.after (hostOps2 (F := F)) V (Proc.devRef .tc main_v47) = Host.divf (V (Proc.devRef .tc main_v45_1)) (broadcastInDim S1x128 ![] bcast_S_S1x128 (constant S_ .f32 0x47435000#32)) := by
  after_results_simp
  results_rw
  all_goals rfl
set_option maxHeartbeats 4000000 in
theorem s2_var (V : Valuation τ sig (Elt F)) :
    StableHlo.after (hostOps2 (F := F)) V (Proc.devRef .tc main_v51) = subf (Host.divf (V (Proc.devRef .tc main_v45_2)) (broadcastInDim S1x128 ![] bcast_S_S1x128 (constant S_ .f32 0x47435000#32)))
      (mulf (Host.divf (V (Proc.devRef .tc main_v45_1)) (broadcastInDim S1x128 ![] bcast_S_S1x128 (constant S_ .f32 0x47435000#32)))
        (Host.divf (V (Proc.devRef .tc main_v45_1)) (broadcastInDim S1x128 ![] bcast_S_S1x128 (constant S_ .f32 0x47435000#32)))) := by
  after_results_simp
  results_rw
  all_goals rfl
set_option maxHeartbeats 4000000 in
theorem s2_gamma (V : Valuation τ sig (Elt F)) :
    StableHlo.after (hostOps2 (F := F)) V (Proc.devRef .tc main_v52) = fun i => shapeCast S1x128 (V (Proc.devRef .tc main_arg4)) shapeCasts_S128_S1x128 i := by
  after_results_simp
  results_rw
  all_goals rfl
set_option maxHeartbeats 4000000 in
theorem s2_beta (V : Valuation τ sig (Elt F)) :
    StableHlo.after (hostOps2 (F := F)) V (Proc.devRef .tc main_v53) = fun i => shapeCast S1x128 (V (Proc.devRef .tc main_arg5)) shapeCasts_S128_S1x128 i := by
  after_results_simp
  results_rw
  all_goals rfl
theorem s2_pre (V : Valuation τ sig (Elt F)) :
    StableHlo.after (hostOps2 (F := F)) V (Proc.devRef .tc main_v45_0) = V (Proc.devRef .tc main_v45_0) := by
  not_written

end Cert.KernelIdeal.KHost

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KReg0.lean ====
/-
  The projection region read as values: each of its two result arrays, after the 25 tiles have been written back,
  holds at entry (p, q) the sum over k of x[p,k]·W[q,k] (rows of x against rows of the weight), at the ideal values.
-/
import proofs.«100133_j30202210025887_1_alg».proof.Proof.Gen.KernelIdeal.Frame
import proofs.«100133_j30202210025887_1_alg».proof.Proof.Spec
import proofs.«100133_j30202210025887_1_alg».proof.Proof.LibDot
import Idealize.ShloMosaic.Lib.Pipeline.Value
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

/-! ## One tile's product at an entry -/

theorem off_zero : (![0, 0] : Fin 2 → Nat) = fun _ => 0 :=
  funext fun a => by match a with | ⟨0, _⟩ => rfl | ⟨1, _⟩ => rfl

/-- The printed contraction is the plain one: a 2000×128 array against a 128×128 array over the shared axis. -/
theorem dot_plain : dot_S2000x128_S128x128_S2000x128_1_0_0_1_n_n = DotDims.plain 2000 128 128 := rfl

/-- A tile of x against the transposed weight, at entry (p, q): the sum over k of x[p,k]·w[q,k]. -/
theorem pay2_apply (x0 : Vec Ideal S2000x128 .f32) (w : Vec Ideal S128x128 .f32) (p : Fin 2000) (q : Fin 128) :
    k0_pay2 x0 w (ix2 p q) = ∑ k : Fin 128, x0 (ix2 p k) * w (ix2 q k) := by
  unfold k0_pay2 k0_pay1
  dsimp only
  rw [dot_plain]
  refine (Cert.GNN.matmul_plain_zero_apply none _ _ p q).trans ?_
  refine Finset.sum_congr rfl fun k _ => ?_
  rw [truncf_apply, transpose_ix2_apply, truncf_apply]

/-- The same tile of x against the other transposed weight, at entry (p, q). -/
theorem pay3_apply (x0 : Vec Ideal S2000x128 .f32) (w : Vec Ideal S128x128 .f32) (p : Fin 2000) (q : Fin 128) :
    k0_pay3 x0 w (ix2 p q) = ∑ k : Fin 128, x0 (ix2 p k) * w (ix2 q k) := by
  unfold k0_pay3 k0_pay1
  dsimp only
  rw [dot_plain]
  refine (Cert.GNN.matmul_plain_zero_apply none _ _ p q).trans ?_
  refine Finset.sum_congr rfl fun k _ => ?_
  rw [truncf_apply, transpose_ix2_apply, truncf_apply]

/-! ## From the tiles to the arrays -/

variable (V : (c : Dev nD) → (b : Ref sig .tc) → Buf (Elt Ideal) ((c : Thread nD τ).loc b))

/-- The printed index maps over the 25 tiles: the x tile and both result tiles are tile t of their arrays (block row t,
    block column 0); both weights are read whole at every tile. -/
theorem tile_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One tile's product is the tile of the whole product: an entry of a tile whose rows are rows of x and whose weight
    rows are rows of W is the entry of x against W at the tile's place. -/
theorem pay2_tile (X : S50000x128.Idx → EReal) (W : S128x128.Idx → EReal)
    (x0 : Vec Ideal S2000x128 .f32) (w : Vec Ideal S128x128 .f32) (i : S50000x128.Idx) (p : Fin 2000) (q : Fin 128)
    (hx : ∀ k : Fin 128, x0 (ix2 p k) = X (ix2 (i 0) k)) (hw : ∀ k : Fin 128, w (ix2 q k) = W (ix2 (i 1) k)) :
    k0_pay2 x0 w (ix2 p q) = Gcn.proj X W i := by
  rw [pay2_apply]
  exact Finset.sum_congr rfl fun k _ => by rw [hx, hw]

/-- The same for the second product. -/
theorem pay3_tile (X : S50000x128.Idx → EReal) (W : S128x128.Idx → EReal)
    (x0 : Vec Ideal S2000x128 .f32) (w : Vec Ideal S128x128 .f32) (i : S50000x128.Idx) (p : Fin 2000) (q : Fin 128)
    (hx : ∀ k : Fin 128, x0 (ix2 p k) = X (ix2 (i 0) k)) (hw : ∀ k : Fin 128, w (ix2 q k) = W (ix2 (i 1) k)) :
    k0_pay3 x0 w (ix2 p q) = Gcn.proj X W i := by
  rw [pay3_apply]
  exact Finset.sum_congr rfl fun k _ => by rw [hx, hw]

/-- What tile t writes back into result 0 is tile t of x against W. -/
theorem flushed3_eq (c : Dev nD) (t : Fin cfg0.N) :
    (dat0 V c).flushed 3 t = ((cfg0.win 3).blk t).view.read (Elt Ideal) (Gcn.proj (V c main_arg0) (V c main_arg1)) := by
  show (cfg0.win 3).cut (grid0.coords t) ((dat0 V c).after 3 t) = _
  rw [after0_3]
  unfold out0_3
  rw [View.canon_unit_zero off_zero]
  simp only [View.ld_unit_zero (S := S2000x128) off_zero, View.ld_unit_zero (S := S128x128) off_zero]
  obtain ⟨e00, e01, e10, e11, e20, e21, e30, e31, e40, e41⟩ := tile_idx t
  funext j
  obtain ⟨p, q, rfl⟩ : ∃ (p : Fin 2000) (q : Fin 128), j = ix2 p q := ⟨j 0, j 1, eq_ix2 j⟩
  show k0_pay2 (iblk0 V c 0 t) (iblk0 V c 1 t) (ix2 p q)
    = Gcn.proj (V c main_arg0) (V c main_arg1) (((cfg0.win 3).blk t).view.emb (ix2 p q))
  refine pay2_tile (V c main_arg0) (V c main_arg1) (iblk0 V c 0 t) (iblk0 V c 1 t) _ p q (fun k => ?_) (fun k => ?_)
  · have h : ((cfg0.win 0).blk t).view.emb (ix2 p k) = ix2 ((((cfg0.win 3).blk t).view.emb (ix2 p q)) 0) k := by
      funext a; apply Fin.ext
      match a with
      | ⟨0, _⟩ => show win0_0.index t (0 : Fin 2) * 2000 + 1 * p.val = win0_3.index t (0 : Fin 2) * 2000 + 1 * p.val; omega
      | ⟨1, _⟩ => show win0_0.index t (1 : Fin 2) * 128 + 1 * k.val = k.val; omega
    exact congrArg (V c main_arg0) h
  · have h : ((cfg0.win 1).blk t).view.emb (ix2 q k) = ix2 ((((cfg0.win 3).blk t).view.emb (ix2 p q)) 1) k := by
      funext a; apply Fin.ext
      match a with
      | ⟨0, _⟩ => show win0_1.index t (0 : Fin 2) * 128 + 1 * q.val = win0_3.index t (1 : Fin 2) * 128 + 1 * q.val; omega
      | ⟨1, _⟩ => show win0_1.index t (1 : Fin 2) * 128 + 1 * k.val = k.val; omega
    exact congrArg (V c main_arg1) h

/-- An entry of result 0 lies in tile t iff its row is one of rows 2000·t … 2000·t + 1999 (all 128 columns). -/
theorem mem_tile3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v30_0).slice (win0_3.rect t)).set ↔ _
  rw [View.set_slice_whole, Rect.mem_set_unit]
  exact Iff.rfl

/-- Every entry of result 0 is written back by the tile its row falls in: row r by tile r / 2000. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e30, e31, -, -⟩ := tile_idx t
  refine ⟨t, flush0_3 t, ?_⟩
  rw [mem_tile3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- Result 0 of the region: x against W. -/
theorem h_eq (c : Dev nD) : (dat0 V c).arrAt 3 cfg0.N = Gcn.proj (V c main_arg0) (V c main_arg1) :=
  (dat0 V c).arrAt_eq_of_cover 3 (Gcn.proj (V c main_arg0) (V c main_arg1)) (fun t _ => flushed3_eq V c t) cover3

/-- What tile t writes back into result 1 is tile t of x against res_W. -/
theorem flushed4_eq (c : Dev nD) (t : Fin cfg0.N) :
    (dat0 V c).flushed 4 t = ((cfg0.win 4).blk t).view.read (Elt Ideal) (Gcn.proj (V c main_arg0) (V c main_arg3)) := by
  show (cfg0.win 4).cut (grid0.coords t) ((dat0 V c).after 4 t) = _
  rw [after0_4]
  unfold out0_4
  rw [View.canon_unit_zero off_zero]
  simp only [View.ld_unit_zero (S := S2000x128) off_zero, View.ld_unit_zero (S := S128x128) off_zero]
  obtain ⟨e00, e01, e10, e11, e20, e21, e30, e31, e40, e41⟩ := tile_idx t
  funext j
  obtain ⟨p, q, rfl⟩ : ∃ (p : Fin 2000) (q : Fin 128), j = ix2 p q := ⟨j 0, j 1, eq_ix2 j⟩
  show k0_pay3 (iblk0 V c 0 t) (iblk0 V c 2 t) (ix2 p q)
    = Gcn.proj (V c main_arg0) (V c main_arg3) (((cfg0.win 4).blk t).view.emb (ix2 p q))
  refine pay3_tile (V c main_arg0) (V c main_arg3) (iblk0 V c 0 t) (iblk0 V c 2 t) _ p q (fun k => ?_) (fun k => ?_)
  · have h : ((cfg0.win 0).blk t).view.emb (ix2 p k) = ix2 ((((cfg0.win 4).blk t).view.emb (ix2 p q)) 0) k := by
      funext a; apply Fin.ext
      match a with
      | ⟨0, _⟩ => show win0_0.index t (0 : Fin 2) * 2000 + 1 * p.val = win0_4.index t (0 : Fin 2) * 2000 + 1 * p.val; omega
      | ⟨1, _⟩ => show win0_0.index t (1 : Fin 2) * 128 + 1 * k.val = k.val; omega
    exact congrArg (V c main_arg0) h
  · have h : ((cfg0.win 2).blk t).view.emb (ix2 q k) = ix2 ((((cfg0.win 4).blk t).view.emb (ix2 p q)) 1) k := by
      funext a; apply Fin.ext
      match a with
      | ⟨0, _⟩ => show win0_2.index t (0 : Fin 2) * 128 + 1 * q.val = win0_4.index t (1 : Fin 2) * 128 + 1 * q.val; omega
      | ⟨1, _⟩ => show win0_2.index t (1 : Fin 2) * 128 + 1 * k.val = k.val; omega
    exact congrArg (V c main_arg3) h

/-- An entry of result 1 lies in tile t iff its row is one of rows 2000·t … 2000·t + 1999 (all 128 columns). -/
theorem mem_tile4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v30_1).slice (win0_4.rect t)).set ↔ _
  rw [View.set_slice_whole, Rect.mem_set_unit]
  exact Iff.rfl

/-- Every entry of result 1 is written back by the tile its row falls in: row r by tile r / 2000. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, e40, e41⟩ := tile_idx t
  refine ⟨t, flush0_4 t, ?_⟩
  rw [mem_tile4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- Result 1 of the region: x against res_W. -/
theorem res_eq (c : Dev nD) : (dat0 V c).arrAt 4 cfg0.N = Gcn.proj (V c main_arg0) (V c main_arg3) :=
  (dat0 V c).arrAt_eq_of_cover 4 (Gcn.proj (V c main_arg0) (V c main_arg3)) (fun t _ => flushed4_eq V c t) cover4

end Cert.KernelIdeal.Reg0

end
-- ==== Proof.KReg1.lean ====
/-
  The add-and-statistics region read as values: result 0 is the pre-activation (agg + res) + bias; results 1 and 2
  are its column sums and the column sums of its squares, accumulated tile by tile from zero over the 25 tiles.
-/
import proofs.«100133_j30202210025887_1_alg».proof.Proof.Gen.KernelIdeal.Frame
import proofs.«100133_j30202210025887_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The pre-activation of the arrays the region is entered with. -/
abbrev pre (c : Dev nD) : Gcn.S50000x128.Idx → EReal := Gcn.preK (V c main_v43) (V c main_v30_1) (V c main_v44)

/-! ## The buffers each case of the body leaves, as the body's arithmetic of its input blocks -/

section Pieces
variable {F : FTy → Type} [FloatOps F]

/-- The zero offsets of a whole-buffer access. -/
theorem hz : (![0, 0] : Fin 2 → Nat) = fun _ => 0 := funext fun a => by fin_cases a <;> rfl

/-- First point, first output: its one store covers the buffer with the pre-activation tile of the three input blocks. -/
theorem out_A_3 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond1_0 i)
    (x0 x1 : Vec F S2000x128 .f32) (x2 : Vec F S1x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero (S := S2000x128) hz]
  simp only [View.readAt_eq_ld, h1.read_unread, h2.read_unread, h3.read_unread, h5.read_unread, h6.read_unread,
    View.ld_unit_zero (S := S2000x128) hz, View.ld_unit_zero (S := S1x128) hz]

/-- First point, second output: the zero row is stored, read back, and the tile's column sums are added to it. -/
theorem out_A_4 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond1_0 i)
    (x0 x1 : Vec F S2000x128 .f32) (x2 : Vec F S1x128 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S2000x128) hz, View.ld_unit_zero (S := S1x128) hz]

/-- First point, third output: the zero row is stored, read back, and the column sums of the tile's squares are added to it. -/
theorem out_A_5 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : cond1_0 i)
    (x0 x1 : Vec F S2000x128 .f32) (x2 : Vec F S1x128 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    View.ld_unit_zero (S := S2000x128) hz, View.ld_unit_zero (S := S1x128) hz]

/-- Later points, first output: the pre-activation tile again, whatever the accumulators hold. -/
theorem out_B_3 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 x1 : Vec F S2000x128 .f32) (x2 xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  sl_unfold_words
  rw [View.canon_unit_zero (S := S2000x128) hz]
  simp only [View.readAt_eq_ld, h1.read_unread, h2.read_unread, h3.read_unread, h5.read_unread, h6.read_unread,
    View.ld_unit_zero (S := S2000x128) hz, View.ld_unit_zero (S := S1x128) hz]

/-- Later points, second output: the tile's column sums added to the row `xo4` the buffer held on entry. -/
theorem out_B_4 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 x1 : Vec F S2000x128 .f32) (x2 xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  sl_unfold_words
  rw [View.canon_unit_zero (S := S1x128) hz]
  simp only [View.readAt_eq_ld, h1.read_unread, h2.read_unread, h3.read_unread, h5.read_unread, h6.read_unread,
    View.ld_unit_zero (S := S2000x128) hz, View.ld_unit_zero (S := S1x128) hz]

/-- Later points, third output: the column sums of the tile's squares added to the row `xo5` the buffer held on entry. -/
theorem out_B_5 (c : Dev nD) (i : grid1.Coords) (a1 : Memref sig .tc .vmem S2000x128 .f32) (h1 : a1.IsWhole)
    (a2 : Memref sig .tc .vmem S2000x128 .f32) (h2 : a2.IsWhole) (a3 : Memref sig .tc .vmem S1x128 .f32) (h3 : a3.IsWhole)
    (a4 : Memref sig .tc .vmem S2000x128 .f32) (h4 : a4.IsWhole) (a5 : Memref sig .tc .vmem S1x128 .f32) (h5 : a5.IsWhole)
    (a6 : Memref sig .tc .vmem S1x128 .f32) (h6 : a6.IsWhole) (hc : ¬cond1_0 i)
    (x0 x1 : Vec F S2000x128 .f32) (x2 xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  sl_unfold_words
  rw [View.canon_unit_zero (S := S1x128) hz]
  simp only [View.readAt_eq_ld, h1.read_unread, h2.read_unread, h3.read_unread, h5.read_unread, h6.read_unread,
    View.ld_unit_zero (S := S2000x128) hz, View.ld_unit_zero (S := S1x128) hz]

end Pieces

/-! ## The body's arithmetic at an index, over the extended reals -/

section Pay
variable (x0 x1 : Vec Ideal S2000x128 .f32) (x2 : Vec Ideal S1x128 .f32)

/-- Entry `(p, q)` of the pre-activation tile: `(agg + res) + bias`, the bias read at column `q` of its one row. -/
theorem pay3_apply (p : Fin 2000) (q : Fin 128) :
    k1_pay3 (F := Ideal) x0 x1 x2 (ix2 p q) = (x0 (ix2 p q) + x1 (ix2 p q)) + x2 (ix2 0 q) := by
  unfold k1_pay3
  refine (addf_apply _ _ _).trans ?_
  refine congrArg₂ (· + ·) ?_ ?_
  · refine (addf_apply _ _ _).trans ?_
    exact congrArg₂ (· + ·) (congrFun (shapeCast_self x0 _) _) (congrFun (shapeCast_self x1 _) _)
  · refine (broadcastTo_apply _ _ (ix2 p q) (ix2 0 q) ?_).trans (congrFun (shapeCast_self x2 _) _)
    intro a
    match a with
    | ⟨0, _⟩ => rfl
    | ⟨1, _⟩ => rfl

/-- The source index over column `q` with row `r` inserted is `(r, q)`. -/
theorem lift_eq (h : S2000x128.Reduces [0] S128) (q : Fin 128) (r : Fin 2000) : h.lift (ix1 q) r = ix2 r q := by
  funext a
  apply Fin.ext
  match a with
  | ⟨0, _⟩ => rfl
  | ⟨1, _⟩ => rfl

/-- A column sum of a tile, added to the running one-row accumulator, at column `q`. -/
theorem colsum_apply (w : FVec Ideal S2000x128 .f32) (acc : Vec Ideal S1x128 .f32)
    (h : S2000x128.Reduces [0] S128) (hφ : FKind.Formats .f32) (hacc : (0x00000000#32 : BitVec 32) = 0x00000000#32)
    (h1 : S1x128.ShapeCasts S1x128) (h2 : S128.ShapeCasts S1x128) (q : Fin 128) :
    addf (shapeCast S1x128 acc h1) (shapeCast S1x128 (multiReduction (F := Ideal) .add [0] S128 w 0x00000000#32 h hφ hacc) h2) (ix2 0 q)
      = acc (ix2 0 q) + ∑ r : Fin 2000, w (ix2 r q) := by
  refine (addf_apply _ _ _).trans ?_
  refine congrArg₂ (· + ·) (congrFun (shapeCast_self acc _) _) ?_
  refine (shapeCast_a_1a_apply _ h2 0 q).trans ?_
  refine (Ideal.multiReduction_add_single w 0x00000000#32 h hφ hacc (ix1 q)).trans ?_
  exact Finset.sum_congr rfl fun r _ => congrArg w (lift_eq h q r)

/-- The second output's new row at column `q`: the old entry plus the tile's column sum. -/
theorem pay4_apply (acc : Vec Ideal S1x128 .f32) (q : Fin 128) :
    k1_pay4 (F := Ideal) x0 x1 x2 acc (ix2 0 q) = acc (ix2 0 q) + ∑ r : Fin 2000, k1_pay3 (F := Ideal) x0 x1 x2 (ix2 r q) := by
  unfold k1_pay4
  exact colsum_apply _ acc _ _ _ _ _ q

/-- The third output's new row at column `q`: the old entry plus the column sum of the tile's squares. -/
theorem pay5_apply (acc : Vec Ideal S1x128 .f32) (q : Fin 128) :
    k1_pay5 (F := Ideal) x0 x1 x2 acc (ix2 0 q)
      = acc (ix2 0 q) + ∑ r : Fin 2000, k1_pay3 (F := Ideal) x0 x1 x2 (ix2 r q) * k1_pay3 (F := Ideal) x0 x1 x2 (ix2 r q) := by
  unfold k1_pay5
  exact colsum_apply _ acc _ _ _ _ _ q

end Pay

/-! ## The input tiles, read off the arrays the region is entered with -/

section Blocks

/-- The three input blocks at point `t`, at their literal types. -/
abbrev aggBlk (c : Dev nD) (t : Fin cfg1.N) : Vec Ideal S2000x128 .f32 := iblk1 V c 0 t
abbrev resBlk (c : Dev nD) (t : Fin cfg1.N) : Vec Ideal S2000x128 .f32 := iblk1 V c 1 t
abbrev biasBlk (c : Dev nD) (t : Fin cfg1.N) : Vec Ideal S1x128 .f32 := iblk1 V c 2 t

/-- The index maps over the grid: the tiled windows sit at block row `t`, the one-row windows at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Entry `(p, q)` of the aggregate's tile `t` is the array's entry at row `2000·t + p`. -/
theorem aggBlk_apply (c : Dev nD) (t : Fin cfg1.N) (p : Fin 2000) (q : Fin 128) :
    aggBlk V c t (ix2 p q) = V c main_v43 (ix2 (Gcn.rowIdx t.val p) q) := by
  obtain ⟨e0, e1, -⟩ := idx_facts t
  have hN : t.val < 25 := lt_of_lt_of_eq t.isLt (show cfg1.N = 25 from N_1)
  show iblk1 V c 0 t (ix2 p q) = _
  unfold iblk1
  rw [View.read_apply]
  show V c main_v43 _ = V c main_v43 _
  congr 1
  funext a; apply Fin.ext
  match a with
  | ⟨0, _⟩ => show win1_0.index t (0 : Fin 2) * 2000 + 1 * p.val = (2000 * t.val + p.val) % 50000; rw [e0]; omega
  | ⟨1, _⟩ => show win1_0.index t (1 : Fin 2) * 128 + 1 * q.val = q.val; rw [e1]; omega

/-- The same for the residual projection's tile. -/
theorem resBlk_apply (c : Dev nD) (t : Fin cfg1.N) (p : Fin 2000) (q : Fin 128) :
    resBlk V c t (ix2 p q) = V c main_v30_1 (ix2 (Gcn.rowIdx t.val p) q) := by
  obtain ⟨-, -, e0, e1, -⟩ := idx_facts t
  have hN : t.val < 25 := lt_of_lt_of_eq t.isLt (show cfg1.N = 25 from N_1)
  show iblk1 V c 1 t (ix2 p q) = _
  unfold iblk1
  rw [View.read_apply]
  show V c main_v30_1 _ = V c main_v30_1 _
  congr 1
  funext a; apply Fin.ext
  match a with
  | ⟨0, _⟩ => show win1_1.index t (0 : Fin 2) * 2000 + 1 * p.val = (2000 * t.val + p.val) % 50000; rw [e0]; omega
  | ⟨1, _⟩ => show win1_1.index t (1 : Fin 2) * 128 + 1 * q.val = q.val; rw [e1]; omega

/-- The bias block is the whole one-row bias array at every point. -/
theorem biasBlk_apply (c : Dev nD) (t : Fin cfg1.N) (q : Fin 128) :
    biasBlk V c t (ix2 0 q) = V c main_v44 (ix2 0 q) := by
  obtain ⟨-, -, -, -, e0, e1, -⟩ := idx_facts t
  show iblk1 V c 2 t (ix2 0 q) = _
  unfold iblk1
  rw [View.read_apply]
  show V c main_v44 _ = V c main_v44 _
  congr 1
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

end Blocks

/-! ## What each point leaves, and the three arrays after the run -/

section Values

/-- The tile the body computes at point `t` is rows `2000·t … 2000·t + 1999` of the pre-activation. -/
theorem tile_apply (c : Dev nD) (t : Fin cfg1.N) (p : Fin 2000) (q : Fin 128) :
    k1_pay3 (F := Ideal) (aggBlk V c t) (resBlk V c t) (biasBlk V c t) (ix2 p q) = pre V c (ix2 (Gcn.rowIdx t.val p) q) :=
  (pay3_apply (aggBlk V c t) (resBlk V c t) (biasBlk V c t) p q).trans
    (congrArg₂ (· + ·) (congrArg₂ (· + ·) (aggBlk_apply V c t p q) (resBlk_apply V c t p q)) (biasBlk_apply V c t q))

/-- The first point: the accumulators are reset, then take the first tile's column sums. -/
theorem outs_A (c : Dev nD) (t : Fin cfg1.N) (h0 : t.val % 25 = 0) :
    outsAt1 V c t.val t.isLt = (k1_pay3 (aggBlk V c t) (resBlk V c t) (biasBlk V c t),
      k1_pay4 (aggBlk V c t) (resBlk V c t) (biasBlk V c t) (k1_pay1 (F := Ideal)),
      k1_pay5 (aggBlk V c t) (resBlk V c t) (biasBlk V c t) (k1_pay2 (F := Ideal))) := by
  rw [outsAt1_A V c t h0, out_A_3, out_A_4, out_A_5]

/-- A later point: the accumulators the point before left take this tile's column sums. -/
theorem outs_B (c : Dev nD) (t : Fin cfg1.N) (h0 : ¬t.val % 25 = 0) :
    outsAt1 V c t.val t.isLt = (k1_pay3 (aggBlk V c t) (resBlk V c t) (biasBlk V c t),
      k1_pay4 (aggBlk V c t) (resBlk V c t) (biasBlk V c t) (outsAt1 V c (t.val - 1) (Nat.lt_of_le_of_lt (Nat.sub_le _ _) t.isLt)).2.1,
      k1_pay5 (aggBlk V c t) (resBlk V c t) (biasBlk V c t) (outsAt1 V c (t.val - 1) (Nat.lt_of_le_of_lt (Nat.sub_le _ _) t.isLt)).2.2) := by
  rw [outsAt1_B V c t h0, out_B_3, out_B_4, out_B_5]

/-- Every point leaves its tile of the pre-activation in the first output's buffer. -/
theorem out3_eq (c : Dev nD) (t : Fin cfg1.N) :
    (outsAt1 V c t.val t.isLt).1 = k1_pay3 (aggBlk V c t) (resBlk V c t) (biasBlk V c t) := by
  by_cases h0 : t.val % 25 = 0
  · rw [outs_A V c t h0]
  · rw [outs_B V c t h0]

/-- After point `n` the two accumulators hold, at column `q`, the column sums of the pre-activation and of its square
    accumulated tile by tile from zero over the tiles `0 … n`: by induction on the point. -/
theorem acc_eq (c : Dev nD) (q : Fin 128) : ∀ (n : ℕ) (h : n < cfg1.N),
    (outsAt1 V c n h).2.1 (ix2 0 q) = Gcn.blockSum (pre V c) q n
      ∧ (outsAt1 V c n h).2.2 (ix2 0 q) = Gcn.blockSum (fun i => pre V c i * pre V c i) q n
  | 0, h => by
    rw [outs_A V c ⟨0, h⟩ rfl]
    dsimp only
    constructor
    · refine (pay4_apply _ _ _ _ q).trans ?_
      show _ = Gcn.zeroF + ∑ r : Fin 2000, pre V c (ix2 (Gcn.rowIdx 0 r) q)
      exact congrArg₂ (· + ·) rfl (Finset.sum_congr rfl fun r _ => tile_apply V c ⟨0, h⟩ r q)
    · refine (pay5_apply _ _ _ _ q).trans ?_
      show _ = Gcn.zeroF + ∑ r : Fin 2000, pre V c (ix2 (Gcn.rowIdx 0 r) q) * pre V c (ix2 (Gcn.rowIdx 0 r) q)
      exact congrArg₂ (· + ·) rfl (Finset.sum_congr rfl fun r _ =>
        congrArg₂ (· * ·) (tile_apply V c ⟨0, h⟩ r q) (tile_apply V c ⟨0, h⟩ r q))
  | n + 1, h => by
    have hN : cfg1.N = 25 := N_1
    have hB : ¬(⟨n + 1, h⟩ : Fin cfg1.N).val % 25 = 0 := by dsimp only; omega
    obtain ⟨ih1, ih2⟩ := acc_eq c q n (Nat.lt_of_succ_lt h)
    rw [outs_B V c ⟨n + 1, h⟩ hB]
    dsimp only
    constructor
    · refine (pay4_apply _ _ _ _ q).trans ?_
      show (outsAt1 V c n _).2.1 (ix2 0 q) + _
        = Gcn.blockSum (pre V c) q n + ∑ r : Fin 2000, pre V c (ix2 (Gcn.rowIdx (n + 1) r) q)
      exact congrArg₂ (· + ·) ih1 (Finset.sum_congr rfl fun r _ => tile_apply V c ⟨n + 1, h⟩ r q)
    · refine (pay5_apply _ _ _ _ q).trans ?_
      show (outsAt1 V c n _).2.2 (ix2 0 q) + _
        = Gcn.blockSum (fun i => pre V c i * pre V c i) q n
          + ∑ r : Fin 2000, pre V c (ix2 (Gcn.rowIdx (n + 1) r) q) * pre V c (ix2 (Gcn.rowIdx (n + 1) r) q)
      exact congrArg₂ (· + ·) ih2 (Finset.sum_congr rfl fun r _ =>
        congrArg₂ (· * ·) (tile_apply V c ⟨n + 1, h⟩ r q) (tile_apply V c ⟨n + 1, h⟩ r q))

end Values

/-! ## From the points' write-backs to the arrays -/

section Finals

/-- What point `t` writes back into the first result is tile `t` of the pre-activation. -/
theorem flushed3_eq (c : Dev nD) (t : Fin cfg1.N) :
    (dat1 V c).flushed 3 t = ((cfg1.win 3).blk t).view.read (Elt Ideal) (pre V c) := by
  obtain ⟨-, -, -, -, -, -, e0, e1, -⟩ := idx_facts t
  have hN : t.val < 25 := lt_of_lt_of_eq t.isLt (show cfg1.N = 25 from N_1)
  show (cfg1.win 3).cut (grid1.coords t) ((dat1 V c).after 3 t) = _
  rw [after1_3, out3_eq]
  refine funext fun (j : S2000x128.Idx) => ?_
  obtain ⟨p, q, rfl⟩ : ∃ (p : Fin 2000) (q : Fin 128), j = ix2 p q := ⟨j 0, j 1, eq_ix2 j⟩
  rw [View.read_apply]
  have hemb : ((cfg1.win 3).blk t).view.emb (ix2 p q) = ix2 (Gcn.rowIdx t.val p) q := by
    funext a; apply Fin.ext
    match a with
    | ⟨0, _⟩ => show win1_3.index t (0 : Fin 2) * 2000 + 1 * p.val = (2000 * t.val + p.val) % 50000; rw [e0]; omega
    | ⟨1, _⟩ => show win1_3.index t (1 : Fin 2) * 128 + 1 * q.val = q.val; rw [e1]; omega
  rw [hemb]
  exact tile_apply V c t p q

/-- A row of the first result lies in point `t`'s block iff it is one of rows `2000·t … 2000·t + 1999`. -/
theorem mem_blk3 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v45_0).slice (win1_3.rect t)).set ↔ _
  rw [View.set_slice_whole, Rect.mem_set_unit]
  exact Iff.rfl

/-- Row `r` is written back by point `r / 2000`. -/
theorem cover3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e0, e1, -⟩ := idx_facts t
  refine ⟨t, flush1_3 t, ?_⟩
  rw [mem_blk3]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

/-- The accumulated column sums of a whole-array function, as a one-row array. -/
abbrev sumRow (f : Gcn.S50000x128.Idx → EReal) : S1x128.Idx → EReal := Gcn.asRow fun q => Gcn.blockSum f q 24

/-- An index of a one-row window's block is the same index of its array. -/
theorem emb4 (t : Fin cfg1.N) (q : Fin 128) :
    ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega
/-- The same for the third result's window. -/
theorem emb5 (t : Fin cfg1.N) (q : Fin 128) :
    ((cfg1.win 5).blk t).view.emb (ix2 (0 : Fin 1) q) = ix2 (0 : Fin 1) q := by
  obtain ⟨-, -, -, -, -, -, -, -, -, -, e0, e1⟩ := idx_facts t
  funext a; apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- The one write-back of the second result, at the last point, writes the column sums accumulated over all 25 tiles. -/
theorem flushed4_eq (c : Dev nD) (t : Fin cfg1.N) (hf : (cfg1.win 4).flush t = true) :
    (dat1 V c).flushed 4 t = ((cfg1.win 4).blk t).view.read (Elt Ideal) (sumRow (pre V c)) := by
  have hN : cfg1.N = 25 := N_1
  have h24 : t.val = 24 := by have := (flush1_4 t).mp hf; have := t.isLt; omega
  show (cfg1.win 4).cut (grid1.coords t) ((dat1 V c).after 4 t) = _
  rw [after1_4]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  rw [View.read_apply, emb4]
  exact ((acc_eq V c q t.val t.isLt).1).trans (congrArg (Gcn.blockSum (pre V c) q) h24)

/-- The same for the third result: the column sums of the squares. -/
theorem flushed5_eq (c : Dev nD) (t : Fin cfg1.N) (hf : (cfg1.win 5).flush t = true) :
    (dat1 V c).flushed 5 t = ((cfg1.win 5).blk t).view.read (Elt Ideal) (sumRow fun i => pre V c i * pre V c i) := by
  have hN : cfg1.N = 25 := N_1
  have h24 : t.val = 24 := by have := (flush1_5 t).mp hf; have := t.isLt; omega
  show (cfg1.win 5).cut (grid1.coords t) ((dat1 V c).after 5 t) = _
  rw [after1_5]
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  rw [View.read_apply, emb5]
  exact ((acc_eq V c q t.val t.isLt).2).trans (congrArg (Gcn.blockSum (fun i => pre V c i * pre V c i) q) h24)

/-- Membership in a one-row window's block, coordinate by coordinate. -/
theorem mem_blk4 (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v45_1).slice (win1_4.rect t)).set ↔ _
  rw [View.set_slice_whole, Rect.mem_set_unit]
  exact Iff.rfl
/-- The same for the third result's window. -/
theorem mem_blk5 (t : Fin cfg1.N) (i : S1x128.Idx) :
    i ∈ ((cfg1.win 5).blk t).view.set ↔ ∀ a : Fin 2, win1_5.index t a * S1x128.size a ≤ (i a).val
      ∧ (i a).val < win1_5.index t a * S1x128.size a + S1x128.size a := by
  show i ∈ ((View.whole main_v45_2).slice (win1_5.rect t)).set ↔ _
  rw [View.set_slice_whole, Rect.mem_set_unit]
  exact Iff.rfl

/-- The last point's block is the whole one-row array. -/
theorem cover4 (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  have hN : cfg1.N = 25 := N_1
  obtain ⟨t, ht⟩ : ∃ t : Fin cfg1.N, t.val = 24 := ⟨⟨24, by rw [hN]; omega⟩, rfl⟩
  obtain ⟨-, -, -, -, -, -, -, -, e0, e1, -⟩ := idx_facts t
  refine ⟨t, (flush1_4 t).mpr (by rw [ht]), ?_⟩
  rw [mem_blk4]
  intro a
  match a with
  | ⟨0, _⟩ =>
    show win1_4.index t (0 : Fin 2) * 1 ≤ (i 0).val ∧ (i 0).val < win1_4.index t (0 : Fin 2) * 1 + 1
    rw [e0]; omega
  | ⟨1, _⟩ =>
    show win1_4.index t (1 : Fin 2) * 128 ≤ (i 1).val ∧ (i 1).val < win1_4.index t (1 : Fin 2) * 128 + 128
    rw [e1]; omega
/-- The same for the third result. -/
theorem cover5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 25 := N_1
  obtain ⟨t, ht⟩ : ∃ t : Fin cfg1.N, t.val = 24 := ⟨⟨24, by rw [hN]; omega⟩, rfl⟩
  obtain ⟨-, -, -, -, -, -, -, -, -, -, e0, e1⟩ := idx_facts t
  refine ⟨t, (flush1_5 t).mpr (by rw [ht]), ?_⟩
  rw [mem_blk5]
  intro a
  match a with
  | ⟨0, _⟩ =>
    show win1_5.index t (0 : Fin 2) * 1 ≤ (i 0).val ∧ (i 0).val < win1_5.index t (0 : Fin 2) * 1 + 1
    rw [e0]; omega
  | ⟨1, _⟩ =>
    show win1_5.index t (1 : Fin 2) * 128 ≤ (i 1).val ∧ (i 1).val < win1_5.index t (1 : Fin 2) * 128 + 128
    rw [e1]; omega

end Finals

/-- Result 0: the pre-activation, every tile written back. -/
theorem v_eq (c : Dev nD) : (dat1 V c).arrAt 3 cfg1.N = pre V c := by
  exact (dat1 V c).arrAt_eq_of_cover 3 (pre V c) (fun t _ => flushed3_eq V c t) cover3

/-- Result 1: the column sums, accumulated over the tiles. -/
theorem sum_eq (c : Dev nD) (q : Fin 128) : (dat1 V c).arrAt 4 cfg1.N (ix2 0 q) = Gcn.blockSum (pre V c) q 24 := by
  exact congrFun ((dat1 V c).arrAt_eq_of_cover 4 (sumRow (pre V c)) (flushed4_eq V c) cover4) (ix2 0 q)

/-- Result 2: the column sums of the squares, accumulated over the tiles. -/
theorem sq_eq (c : Dev nD) (q : Fin 128) :
    (dat1 V c).arrAt 5 cfg1.N (ix2 0 q) = Gcn.blockSum (fun i => pre V c i * pre V c i) q 24 := by
  exact congrFun ((dat1 V c).arrAt_eq_of_cover 5 (sumRow fun i => pre V c i * pre V c i) (flushed5_eq V c) cover5) (ix2 0 q)

end Cert.KernelIdeal.Reg1

end
-- ==== Proof.KReg2.lean ====
/-
  The normalise-and-clamp region read as values: its result array holds, at every entry,
  max (γ·(v − μ)·(σ² + ε)^(-1/2) + β) 0 of the arrays the region is entered with.
-/
import proofs.«100133_j30202210025887_1_alg».proof.Proof.Gen.KernelIdeal.Frame
import proofs.«100133_j30202210025887_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, however spelt. -/
theorem hz : (![0, 0] : Fin 2 → Nat) = fun _ => 0 := funext fun a => by fin_cases a <;> rfl

/-- A one-row array spread over the rows of a tile reads, at row `p` and column `q`, the row's entry of column `q`. -/
theorem row_spread (x : S1x128.Idx → EReal) (p : Fin 2000) (q : Fin 128) :
    broadcastTo S2000x128 x broadcasts_S1x128_S2000x128 (ix2 p q) = x (ix2 0 q) :=
  broadcastTo_1b_ab_apply x broadcasts_S1x128_S2000x128 p q

/-- The tile's arithmetic at row `p`, column `q`: scale the centred entry by γ and by (σ² + ε)^(-1/2) of its
    column, shift by β, clamp at zero. -/
theorem pay_apply (xv : Vec Ideal S2000x128 .f32) (xm xs xg xb : Vec Ideal S1x128 .f32) (p : Fin 2000) (q : Fin 128) :
    k2_pay1 xs xg xv xm xb (ix2 p q)
      = max (xg (ix2 0 q) * (xv (ix2 p q) - xm (ix2 0 q)) * Ideal.rsqrt (xs (ix2 0 q) + Gcn.eps) + xb (ix2 0 q)) Gcn.zeroF := by
  unfold k2_pay1
  simp only [shapeCast_self]
  rw [maximumf_apply, addf_apply, mulf_apply, mulf_apply, subf_apply, row_spread, row_spread, row_spread, row_spread]
  rfl

/-- The normalised, clamped array at an entry whose column is `q`. -/
theorem bn_at (A0 : S50000x128.Idx → EReal) (A1 A2 A3 A4 : S1x128.Idx → EReal) (i : S50000x128.Idx) (q : Fin 128)
    (hq : i 1 = q) :
    Gcn.bn A0 A1 A2 A3 A4 i
      = max (A3 (ix2 0 q) * (A0 i - A1 (ix2 0 q)) * Ideal.rsqrt (A2 (ix2 0 q) + Gcn.eps) + A4 (ix2 0 q)) Gcn.zeroF := by
  subst hq; rfl

/-- The entry's formula respects equal inputs. -/
theorem formula_congr {a0 a1 a2 a3 a4 b0 b1 b2 b3 b4 : EReal} (h0 : a0 = b0) (h1 : a1 = b1) (h2 : a2 = b2) (h3 : a3 = b3)
    (h4 : a4 = b4) :
    max (a3 * (a0 - a1) * Ideal.rsqrt (a2 + Gcn.eps) + a4) Gcn.zeroF
      = max (b3 * (b0 - b1) * Ideal.rsqrt (b2 + Gcn.eps) + b4) Gcn.zeroF := by
  subst h0 h1 h2 h3 h4; rfl

/-- The windows' index maps over the 25 points: the tile windows sit at block row `t`, the one-row windows at the
    origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point `t` writes back is tile `t` of the normalised, clamped array of the arrays the region is entered with. -/
theorem flushed_eq (c : Dev nD) (t : Fin cfg2.N) :
    (dat2 V c).flushed 5 t = ((cfg2.win 5).blk t).view.read (Elt Ideal)
      (Gcn.bn (V c main_v45_0) (V c main_v47) (V c main_v51) (V c main_v52) (V c main_v53)) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  have hq : (((cfg2.win 5).blk t).view.emb (ix2 p q) : S50000x128.Idx) 1 = q :=
    Fin.ext (by show win2_5.index t (1 : Fin 2) * 128 + 1 * q.val = q.val; omega)
  have h0 : (iblk2 V c 0 t : Vec Ideal S2000x128 .f32) (ix2 p q)
      = (V c main_v45_0 : S50000x128.Idx → EReal) (((cfg2.win 5).blk t).view.emb (ix2 p q)) := by
    show (V c main_v45_0 : S50000x128.Idx → EReal) (((cfg2.win 0).blk t).view.emb (ix2 p q)) = _
    refine congrArg (V c main_v45_0 : S50000x128.Idx → EReal) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * q.val = win2_5.index t (1 : Fin 2) * 128 + 1 * q.val; omega
  have h1 : (iblk2 V c 1 t : Vec Ideal S1x128 .f32) (ix2 0 q) = (V c main_v47 : S1x128.Idx → EReal) (ix2 0 q) := by
    show (V c main_v47 : S1x128.Idx → EReal) (((cfg2.win 1).blk t).view.emb (ix2 0 q)) = _
    refine congrArg (V c main_v47 : S1x128.Idx → EReal) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  have h2 : (iblk2 V c 2 t : Vec Ideal S1x128 .f32) (ix2 0 q) = (V c main_v51 : S1x128.Idx → EReal) (ix2 0 q) := by
    show (V c main_v51 : S1x128.Idx → EReal) (((cfg2.win 2).blk t).view.emb (ix2 0 q)) = _
    refine congrArg (V c main_v51 : S1x128.Idx → EReal) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have h3 : (iblk2 V c 3 t : Vec Ideal S1x128 .f32) (ix2 0 q) = (V c main_v52 : S1x128.Idx → EReal) (ix2 0 q) := by
    show (V c main_v52 : S1x128.Idx → EReal) (((cfg2.win 3).blk t).view.emb (ix2 0 q)) = _
    refine congrArg (V c main_v52 : S1x128.Idx → EReal) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have h4 : (iblk2 V c 4 t : Vec Ideal S1x128 .f32) (ix2 0 q) = (V c main_v53 : S1x128.Idx → EReal) (ix2 0 q) := by
    show (V c main_v53 : S1x128.Idx → EReal) (((cfg2.win 4).blk t).view.emb (ix2 0 q)) = _
    refine congrArg (V c main_v53 : S1x128.Idx → EReal) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  refine (pay_apply (iblk2 V c 0 t) (iblk2 V c 1 t) (iblk2 V c 2 t) (iblk2 V c 3 t) (iblk2 V c 4 t) p q).trans ?_
  refine (formula_congr h0 h1 h2 h3 h4).trans ?_
  exact (bn_at (V c main_v45_0) (V c main_v47) (V c main_v51) (V c main_v52) (V c main_v53)
    (((cfg2.win 5).blk t).view.emb (ix2 p q)) q hq).symm

/-- An entry of the array is in point `t`'s tile iff its row is among rows 2000·t … 2000·t + 1999. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v54).slice (win2_5.rect t)).set ↔ _
  rw [View.set_slice_whole, Rect.mem_set_unit]
  exact Iff.rfl

/-- Every entry is in the tile of the point its row falls in: row `r` in tile `r / 2000`. -/
theorem cover (i : S50000x128.Idx) : ∃ t : Fin cfg2.N, (cfg2.win 5).flush t = true ∧ i ∈ ((cfg2.win 5).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  have ht : t.val = (i 0).val / 2000 := rfl
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

theorem out_eq (c : Dev nD) : (dat2 V c).arrAt 5 cfg2.N
    = Gcn.bn (V c main_v45_0) (V c main_v47) (V c main_v51) (V c main_v52) (V c main_v53) :=
  (dat2 V c).arrAt_eq_of_cover 5 (Gcn.bn (V c main_v45_0) (V c main_v47) (V c main_v51) (V c main_v52) (V c main_v53))
    (fun t _ => flushed_eq V c t) cover

end Cert.KernelIdeal.Reg2

end
-- ==== Proof.KValue.lean ====
/-
  The tiled program's result array as a value: the three regions' results and the host stretches between them
  composed from the launch memory to the last boundary. The result is `kerArr` of the arguments.
-/
import proofs.«100133_j30202210025887_1_alg».proof.Proof.Gen.KernelIdeal.Frame
import proofs.«100133_j30202210025887_1_alg».proof.Proof.KHost
import proofs.«100133_j30202210025887_1_alg».proof.Proof.KReg0
import proofs.«100133_j30202210025887_1_alg».proof.Proof.KReg1
import proofs.«100133_j30202210025887_1_alg».proof.Proof.KReg2
import proofs.«100133_j30202210025887_1_alg».proof.Proof.Spec
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The arguments, unchanged at every boundary that reads them -/

theorem w3_arg0 : W3 m ρ c (Proc.devRef .tc main_arg0) = m ((c : Thread nD τ).loc main_arg0) :=
  (KHost.s02_arg0 (W2 m ρ c)).trans ((KHost.s01_arg0 (W1 m ρ c)).trans ((KHost.s0_arg0 (W0 m ρ c)).trans rfl))
theorem w3_arg1 : W3 m ρ c (Proc.devRef .tc main_arg1) = m ((c : Thread nD τ).loc main_arg1) :=
  (KHost.s02_arg1 (W2 m ρ c)).trans ((KHost.s01_arg1 (W1 m ρ c)).trans ((KHost.s0_arg1 (W0 m ρ c)).trans rfl))
theorem w3_arg2 : W3 m ρ c (Proc.devRef .tc main_arg2) = m ((c : Thread nD τ).loc main_arg2) :=
  (KHost.s02_arg2 (W2 m ρ c)).trans ((KHost.s01_arg2 (W1 m ρ c)).trans ((KHost.s0_arg2 (W0 m ρ c)).trans rfl))
theorem w3_arg3 : W3 m ρ c (Proc.devRef .tc main_arg3) = m ((c : Thread nD τ).loc main_arg3) :=
  (KHost.s02_arg3 (W2 m ρ c)).trans ((KHost.s01_arg3 (W1 m ρ c)).trans ((KHost.s0_arg3 (W0 m ρ c)).trans rfl))
theorem w3_arg4 : W3 m ρ c (Proc.devRef .tc main_arg4) = m ((c : Thread nD τ).loc main_arg4) :=
  (KHost.s02_arg4 (W2 m ρ c)).trans ((KHost.s01_arg4 (W1 m ρ c)).trans ((KHost.s0_arg4 (W0 m ρ c)).trans rfl))
theorem w3_arg5 : W3 m ρ c (Proc.devRef .tc main_arg5) = m ((c : Thread nD τ).loc main_arg5) :=
  (KHost.s02_arg5 (W2 m ρ c)).trans ((KHost.s01_arg5 (W1 m ρ c)).trans ((KHost.s0_arg5 (W0 m ρ c)).trans rfl))
theorem w3_arg6 : W3 m ρ c (Proc.devRef .tc main_arg6) = m ((c : Thread nD τ).loc main_arg6) :=
  (KHost.s02_arg6 (W2 m ρ c)).trans ((KHost.s01_arg6 (W1 m ρ c)).trans ((KHost.s0_arg6 (W0 m ρ c)).trans rfl))
theorem w4_arg2 : W4 m ρ c (Proc.devRef .tc main_arg2) = m ((c : Thread nD τ).loc main_arg2) :=
  (W4_of_ne m ρ c main_arg2 (by decide)).trans (w3_arg2 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)

theorem w6_arg4 : W6 m ρ c (Proc.devRef .tc main_arg4) = m ((c : Thread nD τ).loc main_arg4) :=
  (W6_of_ne m ρ c main_arg4 (by decide)).trans ((KHost.s1_arg4 (W4 m ρ c)).trans (w4_arg4 m ρ c))
theorem w6_arg5 : W6 m ρ c (Proc.devRef .tc main_arg5) = m ((c : Thread nD τ).loc main_arg5) :=
  (W6_of_ne m ρ c main_arg5 (by decide)).trans ((KHost.s1_arg5 (W4 m ρ c)).trans (w4_arg5 m ρ c))

/-! ## Before the projection region: edge ends and edge weights -/

theorem w3_src : W3 m ρ c (Proc.devRef .tc main_v3) = Gcn.srcOf (m ((c : Thread nD τ).loc main_arg6)) :=
  (KHost.s02_src (W2 m ρ c)).trans ((KHost.s01_src (W1 m ρ c)).trans ((KHost.s0_src (W0 m ρ c)).trans rfl))
theorem w3_dst : W3 m ρ c (Proc.devRef .tc main_v6) = Gcn.dstOf (m ((c : Thread nD τ).loc main_arg6)) :=
  (KHost.s02_dst (W2 m ρ c)).trans ((KHost.s01_dst (W1 m ρ c)).trans ((KHost.s0_dst (W0 m ρ c)).trans rfl))

theorem w2_dinv : W2 m ρ c (Proc.devRef .tc main_v14)
    = Gcn.dinvOf (Gcn.degOf (F := Ideal) (Gcn.dstOf (m ((c : Thread nD τ).loc main_arg6)))) := by
  refine (KHost.s01_dinv (W1 m ρ c)).trans ?_
  rw [show W1 m ρ c (Proc.devRef .tc main_v12) = _ from KHost.s0_pos (W0 m ρ c),
    show W1 m ρ c (Proc.devRef .tc main_v13) = _ from KHost.s0_rsqrt (W0 m ρ c),
    show W1 m ρ c (Proc.devRef .tc main_cst_2) = _ from KHost.s0_zero (W0 m ρ c)]
  rfl

theorem w3_norm : W3 m ρ c (Proc.devRef .tc main_v29) = Gcn.edgeNorm (F := Ideal) (m ((c : Thread nD τ).loc main_arg6)) := by
  refine (KHost.s02_norm (W2 m ρ c)).trans ?_
  rw [w2_dinv m ρ c, show W2 m ρ c (Proc.devRef .tc main_v3) = _ from (KHost.s01_src (W1 m ρ c)).trans ((KHost.s0_src (W0 m ρ c)).trans rfl),
    show W2 m ρ c (Proc.devRef .tc main_v6) = _ from (KHost.s01_dst (W1 m ρ c)).trans ((KHost.s0_dst (W0 m ρ c)).trans rfl)]
  rfl

/-! ## The projection region -/

theorem w4_h : W4 m ρ c (Proc.devRef .tc main_v30_0)
    = Gcn.proj (m ((c : Thread nD τ).loc main_arg0)) (m ((c : Thread nD τ).loc main_arg1)) := by
  refine (W4_arr m ρ c 3).trans ((Reg0.h_eq (V3 m ρ) c).trans ?_)
  rw [show V3 m ρ c main_arg0 = _ from w3_arg0 m ρ c, show V3 m ρ c main_arg1 = _ from w3_arg1 m ρ c]

theorem w4_res : W4 m ρ c (Proc.devRef .tc main_v30_1)
    = Gcn.proj (m ((c : Thread nD τ).loc main_arg0)) (m ((c : Thread nD τ).loc main_arg3)) := by
  refine (W4_arr m ρ c 4).trans ((Reg0.res_eq (V3 m ρ) c).trans ?_)
  rw [show V3 m ρ c main_arg0 = _ from w3_arg0 m ρ c, show V3 m ρ c main_arg3 = _ from w3_arg3 m ρ c]

/-! ## Between the regions: the neighbourhood sum and the one-row bias -/

theorem w5_agg : W5 m ρ c (Proc.devRef .tc main_v43)
    = Gcn.graphAgg (F := Ideal) (Gcn.proj (m ((c : Thread nD τ).loc main_arg0)) (m ((c : Thread nD τ).loc main_arg1)))
        (m ((c : Thread nD τ).loc main_arg6)) := by
  refine (KHost.s1_agg (W4 m ρ c)).trans ?_
  rw [w4_h m ρ c,
    show W4 m ρ c (Proc.devRef .tc main_v3) = _ from (W4_of_ne m ρ c main_v3 (by decide)).trans (w3_src m ρ c),
    show W4 m ρ c (Proc.devRef .tc main_v6) = _ from (W4_of_ne m ρ c main_v6 (by decide)).trans (w3_dst m ρ c),
    show W4 m ρ c (Proc.devRef .tc main_v29) = _ from (W4_of_ne m ρ c main_v29 (by decide)).trans (w3_norm m ρ c)]
  rfl

theorem w5_bias (q : Fin 128) : W5 m ρ c (Proc.devRef .tc main_v44) (ix2 0 q) = m ((c : Thread nD τ).loc main_arg2) (ix1 q) := by
  rw [show W5 m ρ c (Proc.devRef .tc main_v44) = _ from KHost.s1_bias (W4 m ρ c), w4_arg2 m ρ c]
  exact shapeCast_a_1a_apply _ _ 0 q

theorem w5_res : W5 m ρ c (Proc.devRef .tc main_v30_1)
    = Gcn.proj (m ((c : Thread nD τ).loc main_arg0)) (m ((c : Thread nD τ).loc main_arg3)) :=
  (KHost.s1_res (W4 m ρ c)).trans (w4_res m ρ c)

/-! ## The statistics region -/

/-- The pre-activation, as an array of the arguments. -/
abbrev preArr : Gcn.S50000x128.Idx → EReal :=
  Gcn.preK (Gcn.graphAgg (F := Ideal) (Gcn.proj (m ((c : Thread nD τ).loc main_arg0)) (m ((c : Thread nD τ).loc main_arg1)))
      (m ((c : Thread nD τ).loc main_arg6)))
    (Gcn.proj (m ((c : Thread nD τ).loc main_arg0)) (m ((c : Thread nD τ).loc main_arg3)))
    (Gcn.asRow fun q => m ((c : Thread nD τ).loc main_arg2) (ix1 q))

theorem pre_eq : Reg1.pre (V5 m ρ) c = preArr m c := by
  show Gcn.preK (V5 m ρ c main_v43) (V5 m ρ c main_v30_1) (V5 m ρ c main_v44) = Gcn.preK _ _ _
  rw [show V5 m ρ c main_v43 = _ from w5_agg m ρ c, show V5 m ρ c main_v30_1 = _ from w5_res m ρ c]
  funext i
  unfold Gcn.preK
  rw [show V5 m ρ c main_v44 (ix2 0 (i 1)) = _ from w5_bias m ρ c (i 1)]
  rfl

theorem w6_pre : W6 m ρ c (Proc.devRef .tc main_v45_0) = preArr m c :=
  (W6_arr m ρ c 3).trans ((Reg1.v_eq (V5 m ρ) c).trans (pre_eq m ρ c))

theorem w6_sum (q : Fin 128) : W6 m ρ c (Proc.devRef .tc main_v45_1) (ix2 0 q) = Gcn.blockSum (preArr m c) q 24 := by
  rw [show W6 m ρ c (Proc.devRef .tc main_v45_1) = _ from W6_arr m ρ c 4, Reg1.sum_eq (V5 m ρ) c q, pre_eq m ρ c]

theorem w6_sq (q : Fin 128) : W6 m ρ c (Proc.devRef .tc main_v45_2) (ix2 0 q)
    = Gcn.blockSum (fun i => preArr m c i * preArr m c i) q 24 := by
  rw [show W6 m ρ c (Proc.devRef .tc main_v45_2) = _ from W6_arr m ρ c 5, Reg1.sq_eq (V5 m ρ) c q, pre_eq m ρ c]

/-! ## Before the last region: the column mean and variance, γ and β as one-row arrays -/

theorem w7_pre : W7 m ρ c (Proc.devRef .tc main_v45_0) = preArr m c :=
  (KHost.s2_pre (W6 m ρ c)).trans (w6_pre m ρ c)

theorem w7_mean (q : Fin 128) : W7 m ρ c (Proc.devRef .tc main_v47) (ix2 0 q)
    = Ideal.div (Gcn.blockSum (preArr m c) q 24) Gcn.cntN := by
  rw [show W7 m ρ c (Proc.devRef .tc main_v47) = _ from KHost.s2_mean (W6 m ρ c)]
  show Ideal.div (W6 m ρ c (Proc.devRef .tc main_v45_1) (ix2 0 q)) _ = _
  rw [w6_sum m ρ c q]
  rfl

theorem w7_var (q : Fin 128) : W7 m ρ c (Proc.devRef .tc main_v51) (ix2 0 q)
    = Ideal.div (Gcn.blockSum (fun i => preArr m c i * preArr m c i) q 24) Gcn.cntN
      - Ideal.div (Gcn.blockSum (preArr m c) q 24) Gcn.cntN * Ideal.div (Gcn.blockSum (preArr m c) q 24) Gcn.cntN := by
  rw [show W7 m ρ c (Proc.devRef .tc main_v51) = _ from KHost.s2_var (W6 m ρ c)]
  show Ideal.div (W6 m ρ c (Proc.devRef .tc main_v45_2) (ix2 0 q)) _
      - Ideal.div (W6 m ρ c (Proc.devRef .tc main_v45_1) (ix2 0 q)) _ * Ideal.div (W6 m ρ c (Proc.devRef .tc main_v45_1) (ix2 0 q)) _ = _
  rw [w6_sum m ρ c q, w6_sq m ρ c q]
  rfl

theorem w7_gamma (q : Fin 128) : W7 m ρ c (Proc.devRef .tc main_v52) (ix2 0 q) = m ((c : Thread nD τ).loc main_arg4) (ix1 q) := by
  rw [show W7 m ρ c (Proc.devRef .tc main_v52) = _ from KHost.s2_gamma (W6 m ρ c), w6_arg4 m ρ c]
  exact shapeCast_a_1a_apply _ _ 0 q

theorem w7_beta (q : Fin 128) : W7 m ρ c (Proc.devRef .tc main_v53) (ix2 0 q) = m ((c : Thread nD τ).loc main_arg5) (ix1 q) := by
  rw [show W7 m ρ c (Proc.devRef .tc main_v53) = _ from KHost.s2_beta (W6 m ρ c), w6_arg5 m ρ c]
  exact shapeCast_a_1a_apply _ _ 0 q

/-! ## The last region, and the result -/

/-- The normalisation reads its one-row arrays only at the entries `(0, q)`. -/
theorem bn_congr (v : Gcn.S50000x128.Idx → EReal) (μ σ γ β μ' σ' γ' β' : Gcn.S1x128.Idx → EReal)
    (hμ : ∀ q : Fin 128, μ (ix2 0 q) = μ' (ix2 0 q)) (hσ : ∀ q : Fin 128, σ (ix2 0 q) = σ' (ix2 0 q))
    (hγ : ∀ q : Fin 128, γ (ix2 0 q) = γ' (ix2 0 q)) (hβ : ∀ q : Fin 128, β (ix2 0 q) = β' (ix2 0 q)) :
    Gcn.bn v μ σ γ β = Gcn.bn v μ' σ' γ' β' := by
  funext i
  unfold Gcn.bn
  rw [hμ (i 1), hσ (i 1), hγ (i 1), hβ (i 1)]

/-- The result array of the tiled program is `kerArr` of the arguments. -/
theorem value : W8 m ρ c (Proc.devRef .tc main_v54)
    = Gcn.kerArr (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (W8_arr m ρ c 5).trans ((Reg2.out_eq (V7 m ρ) c).trans ?_)
  rw [show V7 m ρ c main_v45_0 = _ from w7_pre m ρ c]
  exact bn_congr _ _ _ _ _ _ _ _ _ (fun q => (w7_mean m ρ c q).trans rfl) (fun q => (w7_var m ρ c q).trans rfl)
    (fun q => (w7_gamma m ρ c q).trans rfl) (fun q => (w7_beta m ρ c q).trans rfl)

end Cert.KernelIdeal.KValue

end
-- ==== Proof.RefTerm.lean ====
/-
  The plain program's result as one term of its arguments, operation by operation: the two projections (a product
  with the transposed weight), the graph step on the first, the bias row and the second projection added, the column
  mean and the column variance (the mean of the squared deviations, divided by the count minus a zero correction and
  guarded by "count positive"), the normalisation with γ, β and ε, and the clamp at zero.
-/
import proofs.«100133_j30202210025887_1_alg».proof.Proof.Gen.ReferenceIdeal
import proofs.«100133_j30202210025887_1_alg».proof.Proof.Spec

noncomputable section

namespace Cert.ReferenceIdeal.RefTerm

open Cert.ReferenceIdeal Cert.ReferenceIdeal.Gen Idealize.ShloMosaic

variable {F : FTy → Type} [FloatOps F]

/-- A per-column vector laid along every row. -/
def bcRow (a : FVec F S128 .f32) : FVec F S50000x128 .f32 :=
  broadcastInDim S50000x128 ![0, 1] bcast_S1x128_S50000x128_0_1 (broadcastInDim S1x128 ![1] bcast_S128_S1x128_1 a)

/-- Rows of `x` against rows of `W`: the product with the transposed weight. -/
def dotT (x : FVec F S50000x128 .f32) (W : FVec F S128x128 .f32) : FVec F S50000x128 .f32 :=
  Host.dotGeneral dot_S50000x128_S128x128_S50000x128_1_0_0_1_n_n none x
    (transpose S128x128 [1, 0] W transposes_S128x128_S128x128_1_0)

/-- The pre-activation: (graph step of the first projection + bias) + second projection. -/
def pre (x : FVec F S50000x128 .f32) (W : FVec F S128x128 .f32) (b : FVec F S128 .f32) (rW : FVec F S128x128 .f32)
    (e : IVec S2x800000 32) : FVec F S50000x128 .f32 :=
  addf (addf (Gcn.graphAgg (dotT x W) e) (bcRow b)) (dotT x rW)

/-- The column totals. -/
def colTot (v : FVec F S50000x128 .f32) : FVec F S128 .f32 :=
  Host.reduceAdd v (constant S_ .f32 0x00000000#32) reducesTo_S50000x128_S128_d0 h_S_

/-- The column means. -/
def mean (v : FVec F S50000x128 .f32) : FVec F S128 .f32 :=
  Host.divf (colTot v) (broadcastInDim S128 ![] bcast_S_S128 (constant S_ .f32 0x47435000#32))

/-- The deviations from the column means (the means formed as a one-row array). -/
def dev (v : FVec F S50000x128 .f32) : FVec F S50000x128 .f32 :=
  subf v (broadcastInDim S50000x128 ![0, 1] bcast_S1x128_S50000x128_0_1
    (Host.divf (broadcastInDim S1x128 ![1] bcast_S128_S1x128_1 (colTot v))
      (broadcastInDim S1x128 ![] bcast_S_S1x128 (constant S_ .f32 0x47435000#32))))

/-- The divisor of the variance: the count minus the (zero) correction. -/
def cnt : FVec F S_ .f32 :=
  subf (constant S_ .f32 0x47435000#32) (sitofp (F := F) .f32 (constantI S_ 32 0#32))

/-- The column variances. -/
def var (v : FVec F S50000x128 .f32) : FVec F S128 .f32 :=
  select (broadcastInDim S128 ![] bcast_S_S128 (cmpf (F := F) .ogt (cnt (F := F)) (constant S_ .f32 0x00000000#32)))
    (Host.divf (Host.reduceAdd (mulf (dev v) (dev v)) (constant S_ .f32 0x00000000#32) reducesTo_S50000x128_S128_d0 h_S_)
      (broadcastInDim S128 ![] bcast_S_S128 (cnt (F := F))))
    (broadcastInDim S128 ![] bcast_S_S128 (id (constant S_ .f32 0x7FC00000#32)))

/-- Normalise, scale, shift, clamp. -/
def out (v : FVec F S50000x128 .f32) (γ β : FVec F S128 .f32) : FVec F S50000x128 .f32 :=
  maximumf
    (addf
      (mulf (mulf (bcRow γ) (subf v (bcRow (mean v))))
        (bcRow (Host.rsqrt (addf (var v) (broadcastInDim S128 ![] bcast_S_S128 (constant S_ .f32 0x3727C5AC#32))))))
      (bcRow β))
    (broadcastInDim S50000x128 ![] bcast_S_S50000x128 (constant S_ .f32 0x00000000#32))

/-- The result as one term of the arguments. -/
def refTerm (x : FVec F S50000x128 .f32) (W : FVec F S128x128 .f32) (b : FVec F S128 .f32) (rW : FVec F S128x128 .f32)
    (γ β : FVec F S128 .f32) (e : IVec S2x800000 32) : FVec F S50000x128 .f32 :=
  out (pre x W b rW e) γ β

end Cert.ReferenceIdeal.RefTerm

end
-- ==== Proof.RefRun.lean ====
/-
  The plain program's run read back: every execution ends with the result array at the program's term of the
  arguments (`RefTerm.refTerm`) and the arguments unchanged, at any float instance.

  The program's 87 statements, the three module-local functions unfolded at their calls over the calls' buffer
  records, are 111 host operations in order. They are listed in five consecutive stretches (the edge ends; the edge
  weights; the graph step and the bias; the second projection; the batch normalisation and the clamp), the program is
  shown to be that line, and the run theorem for a straight line gives every final buffer as the fold of the
  operations' results over the launch contents. The fold is then read stretch by stretch: each stretch's result is a
  term of what the stretch before left, and no stretch writes an argument.
-/
import proofs.«100133_j30202210025887_1_alg».proof.Proof.Gen.ReferenceIdeal
import proofs.«100133_j30202210025887_1_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-! ## The operations -/

/-- 7 operations: the edge ends: the self loops' node numbers, the two rows of the edge list cut out and flattened, each followed by the self loops. -/
abbrev opsA0 : List (HloOp τ sig (Elt F)) :=
  [ nullary main_v0 (iotaInDim S50000 32 0),
    unary main_arg6 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg6 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- 33 operations: the degrees, their inverse square roots where positive (the guarded choice inlined), the wrapped indices of both ends, the two reads and the edge weights. -/
abbrev opsA1 : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2) main_call0.v0 id,
    TRef.unary main_call0.v0 main_call0.v1 (broadcastInDim S50000 ![] bcast_S_S50000),
    TRef.ternary (.of main_v12) (.of main_v13) main_call0.v1 main_call0.v2 select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- 22 operations: the first projection, its rows read at the sources and weighted, the sum into the destinations, the bias row added, the second weight transposed. -/
abbrev opsB1 : List (HloOp τ sig (Elt F)) :=
  [ unary main_arg1 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg3 main_v48 ((transpose S128x128 [1, 0] · transposes_S128x128_S128x128_1_0) : (⟨S128x128, .f32⟩ : BufTy).Contents (Elt F) → (⟨S128x128, .f32⟩ : BufTy).Contents (Elt F)) ]

/-- 2 operations: the second projection and the pre-activation. -/
abbrev opsB2 : List (HloOp τ sig (Elt F)) :=
  [ binary main_arg0 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)) ]

/-- 47 operations: the column mean, the column variance (inlined, with its own guarded choice inlined in it), the normalisation and the clamp (inlined). -/
abbrev opsC : List (HloOp τ sig (Elt F)) :=
  [ nullary main_cst_9 (constant S_ .f32 0x00000000#32),
    binary main_v50 main_cst_9 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v50) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v50) main_call1.v4 main_call1.v5 subf,
    TRef.binary main_call1.v5 main_call1.v5 main_call1.v6 mulf,
    TRef.unary (.of main_c_11) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v53 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v50 main_v56 main_v57 (subf : (⟨S50000x128, .f32⟩ : BufTy).Contents (Elt F) → (⟨S50000x128, .f32⟩ : BufTy).Contents (Elt F) → (⟨S50000x128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v59 main_v57 main_v60 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v61 (broadcastInDim S128 ![] bcast_S_S128 : (⟨S_, .f32⟩ : BufTy).Contents (Elt F) → (⟨S128, .f32⟩ : BufTy).Contents (Elt F)),
    binary main_v54 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v69) main_call2.v0 main_call2.v1 maximumf ]

/-- The whole line. -/
abbrev ops : List (HloOp τ sig (Elt F)) := ((opsA0 ++ opsA1) ++ opsB1) ++ (opsB2 ++ opsC)

/-! ## The program is that line -/

-- sixty-two binds re-associated, the first called function unfolded at its call
set_option maxRecDepth 4096 in
set_option maxHeartbeats 4000000 in
/-- The first window of the program is the first three stretches in order. -/
theorem part0_eq (c : Dev nD) : main_part0 (F := F) c = seq ((opsA0 ++ opsA1) ++ opsB1) := by
  simp only [main_part0, fn_where.body, seq, bind_assoc, pure_bind]
  rfl

set_option maxRecDepth 4096 in
set_option maxHeartbeats 4000000 in
/-- The second window is the last two stretches in order: the variance's function, the guarded choice it calls and
    the clamp's function unfolded at their calls. -/
theorem part1_eq (c : Dev nD) : main_part1 (F := F) c = seq (opsB2 ++ opsC) := by
  simp only [main_part1, fn_var.body, fn_where_0.body, fn_relu.body, seq, bind_assoc, pure_bind]
  rfl

/-- The program is the whole line. -/
theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its result -/

theorem opsA0_sub : (opsA0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub ..⟩

theorem opsA1_sub : (opsA1 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

theorem opsB1_sub : (opsB1 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., unary_bufs_sub ..⟩

theorem opsB2_sub : (opsB2 : List (HloOp τ sig (Elt F))).Forall fun op => op.bufs ⊆ tcRefs τ sig :=
  ⟨binary_bufs_sub .., binary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨opsA0_sub, opsA1_sub⟩, opsB1_sub⟩,
    List.forall_append.mpr ⟨opsB2_sub, opsC_sub⟩⟩

theorem opsA0_fresh : (opsA0 : List (HloOp τ sig (Elt F))).Forall fun op => op.fresh = ∅ :=
  ⟨rfl, rfl, rfl, rfl, rfl, rfl, rfl⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

theorem opsB2_fresh : (opsB2 : List (HloOp τ sig (Elt F))).Forall fun op => op.fresh = ∅ :=
  ⟨rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem ops_fresh : ∀ op ∈ (ops : List (HloOp τ sig (Elt F))), op.fresh = ∅ :=
  List.forall_iff_forall_mem.mp (List.forall_append.mpr ⟨List.forall_append.mpr ⟨List.forall_append.mpr
    ⟨opsA0_fresh, opsA1_fresh⟩, opsB1_fresh⟩, List.forall_append.mpr ⟨opsB2_fresh, opsC_fresh⟩⟩)

/-! ## The run -/

/-- On every device, for any float values, from any memory with zero counters: every weakly fair execution of the
    program terminates with each buffer at the fold of the five stretches, in order, over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsC (after opsB2 (after opsB1 (after opsA1 (after opsA0 (launchContents m c))))) (Proc.devRef .tc b) :=
  (θ_run defs _ _).mono (fun _ h c b => (h c b).trans (by
      simp only [ops, StableHlo.after_append]))
    (run_seq scopedRefs_eq scopedSems_eq defs main (fun _ => ops) main_eq (fun _ => ops_sub) m ρ (fun _ => ops_fresh))

/-! ## The edge ends -/

/-- The sources: row 0 of the edge list, then the self loops. -/
theorem A0_v3 (V : Valuation τ sig (Elt F)) :
    after opsA0 V (main_v3 : DevRef τ sig) = Gcn.srcOf (V (main_arg6 : DevRef τ sig)) := by
  after_results
  rfl

/-- The destinations: row 1 of the edge list, then the self loops. -/
theorem A0_v6 (V : Valuation τ sig (Elt F)) :
    after opsA0 V (main_v6 : DevRef τ sig) = Gcn.dstOf (V (main_arg6 : DevRef τ sig)) := by
  after_results
  rfl

theorem opsA0_args (V : Valuation τ sig (Elt F)) :
    after opsA0 V (main_arg0 : DevRef τ sig) = V (main_arg0 : DevRef τ sig)
      ∧ after opsA0 V (main_arg1 : DevRef τ sig) = V (main_arg1 : DevRef τ sig)
      ∧ after opsA0 V (main_arg2 : DevRef τ sig) = V (main_arg2 : DevRef τ sig)
      ∧ after opsA0 V (main_arg3 : DevRef τ sig) = V (main_arg3 : DevRef τ sig)
      ∧ after opsA0 V (main_arg4 : DevRef τ sig) = V (main_arg4 : DevRef τ sig)
      ∧ after opsA0 V (main_arg5 : DevRef τ sig) = V (main_arg5 : DevRef τ sig)
      ∧ after opsA0 V (main_arg6 : DevRef τ sig) = V (main_arg6 : DevRef τ sig) := by
  refine ⟨?_, ?_, ?_, ?_, ?_, ?_, ?_⟩ <;> after_results_simp

/-! ## The edge weights -/

set_option maxHeartbeats 1000000 in
/-- The weights, from the ends the stretch before left. -/
theorem A1_v29 (V : Valuation τ sig (Elt F)) :
    after opsA1 V (main_v29 : DevRef τ sig)
      = Gcn.normOf (Gcn.dinvOf (Gcn.degOf (V (main_v6 : DevRef τ sig)))) (V (main_v3 : DevRef τ sig)) (V (main_v6 : DevRef τ sig)) := by
  after_results_simp
  simp only [TRef.ofBuf, TRef.toBuf, cast_eq]
  rfl

/-- The ends are not written again. -/
theorem A1_v3 (V : Valuation τ sig (Elt F)) :
    after opsA1 V (main_v3 : DevRef τ sig) = V (main_v3 : DevRef τ sig) := by
  after_results_simp
theorem A1_v6 (V : Valuation τ sig (Elt F)) :
    after opsA1 V (main_v6 : DevRef τ sig) = V (main_v6 : DevRef τ sig) := by
  after_results_simp

theorem opsA1_args (V : Valuation τ sig (Elt F)) :
    after opsA1 V (main_arg0 : DevRef τ sig) = V (main_arg0 : DevRef τ sig)
      ∧ after opsA1 V (main_arg1 : DevRef τ sig) = V (main_arg1 : DevRef τ sig)
      ∧ after opsA1 V (main_arg2 : DevRef τ sig) = V (main_arg2 : DevRef τ sig)
      ∧ after opsA1 V (main_arg3 : DevRef τ sig) = V (main_arg3 : DevRef τ sig)
      ∧ after opsA1 V (main_arg4 : DevRef τ sig) = V (main_arg4 : DevRef τ sig)
      ∧ after opsA1 V (main_arg5 : DevRef τ sig) = V (main_arg5 : DevRef τ sig)
      ∧ after opsA1 V (main_arg6 : DevRef τ sig) = V (main_arg6 : DevRef τ sig) := by
  refine ⟨?_, ?_, ?_, ?_, ?_, ?_, ?_⟩ <;> after_results_simp

/-! ## The graph step and the bias -/

set_option maxHeartbeats 1000000 in
/-- The weighted rows summed into their destinations, plus the bias row. -/
theorem B1_v47 (V : Valuation τ sig (Elt F)) :
    after opsB1 V (main_v47 : DevRef τ sig)
      = addf (Gcn.aggOf (RefTerm.dotT (V (main_arg0 : DevRef τ sig)) (V (main_arg1 : DevRef τ sig)))
            (V (main_v3 : DevRef τ sig)) (V (main_v6 : DevRef τ sig)) (V (main_v29 : DevRef τ sig)))
          (RefTerm.bcRow (V (main_arg2 : DevRef τ sig))) := by
  after_results_simp
  rfl

/-- The second weight, transposed. -/
theorem B1_v48 (V : Valuation τ sig (Elt F)) :
    after opsB1 V (main_v48 : DevRef τ sig)
      = transpose S128x128 [1, 0] (V (main_arg3 : DevRef τ sig)) transposes_S128x128_S128x128_1_0 := by
  after_results_simp

theorem opsB1_args (V : Valuation τ sig (Elt F)) :
    after opsB1 V (main_arg0 : DevRef τ sig) = V (main_arg0 : DevRef τ sig)
      ∧ after opsB1 V (main_arg1 : DevRef τ sig) = V (main_arg1 : DevRef τ sig)
      ∧ after opsB1 V (main_arg2 : DevRef τ sig) = V (main_arg2 : DevRef τ sig)
      ∧ after opsB1 V (main_arg3 : DevRef τ sig) = V (main_arg3 : DevRef τ sig)
      ∧ after opsB1 V (main_arg4 : DevRef τ sig) = V (main_arg4 : DevRef τ sig)
      ∧ after opsB1 V (main_arg5 : DevRef τ sig) = V (main_arg5 : DevRef τ sig)
      ∧ after opsB1 V (main_arg6 : DevRef τ sig) = V (main_arg6 : DevRef τ sig) := by
  refine ⟨?_, ?_, ?_, ?_, ?_, ?_, ?_⟩ <;> after_results_simp

/-! ## The pre-activation -/

theorem B2_v50 (V : Valuation τ sig (Elt F)) :
    after opsB2 V (main_v50 : DevRef τ sig)
      = addf (V (main_v47 : DevRef τ sig))
          (Host.dotGeneral dot_S50000x128_S128x128_S50000x128_1_0_0_1_n_n none (V (main_arg0 : DevRef τ sig))
            (V (main_v48 : DevRef τ sig))) := by
  after_results_simp

theorem opsB2_args (V : Valuation τ sig (Elt F)) :
    after opsB2 V (main_arg0 : DevRef τ sig) = V (main_arg0 : DevRef τ sig)
      ∧ after opsB2 V (main_arg1 : DevRef τ sig) = V (main_arg1 : DevRef τ sig)
      ∧ after opsB2 V (main_arg2 : DevRef τ sig) = V (main_arg2 : DevRef τ sig)
      ∧ after opsB2 V (main_arg3 : DevRef τ sig) = V (main_arg3 : DevRef τ sig)
      ∧ after opsB2 V (main_arg4 : DevRef τ sig) = V (main_arg4 : DevRef τ sig)
      ∧ after opsB2 V (main_arg5 : DevRef τ sig) = V (main_arg5 : DevRef τ sig)
      ∧ after opsB2 V (main_arg6 : DevRef τ sig) = V (main_arg6 : DevRef τ sig) := by
  refine ⟨?_, ?_, ?_, ?_, ?_, ?_, ?_⟩ <;> after_results_simp

/-! ## The normalisation and the clamp -/

set_option maxHeartbeats 1000000 in
/-- The result, from the pre-activation and the two per-column parameters. -/
theorem C_v70 (V : Valuation τ sig (Elt F)) :
    after opsC V (main_v70 : DevRef τ sig)
      = RefTerm.out (V (main_v50 : DevRef τ sig)) (V (main_arg4 : DevRef τ sig)) (V (main_arg5 : DevRef τ sig)) := by
  after_results_simp
  simp only [TRef.ofBuf, TRef.toBuf, cast_eq]
  rfl

theorem opsC_args (V : Valuation τ sig (Elt F)) :
    after opsC V (main_arg0 : DevRef τ sig) = V (main_arg0 : DevRef τ sig)
      ∧ after opsC V (main_arg1 : DevRef τ sig) = V (main_arg1 : DevRef τ sig)
      ∧ after opsC V (main_arg2 : DevRef τ sig) = V (main_arg2 : DevRef τ sig)
      ∧ after opsC V (main_arg3 : DevRef τ sig) = V (main_arg3 : DevRef τ sig)
      ∧ after opsC V (main_arg4 : DevRef τ sig) = V (main_arg4 : DevRef τ sig)
      ∧ after opsC V (main_arg5 : DevRef τ sig) = V (main_arg5 : DevRef τ sig)
      ∧ after opsC V (main_arg6 : DevRef τ sig) = V (main_arg6 : DevRef τ sig) := by
  refine ⟨?_, ?_, ?_, ?_, ?_, ?_, ?_⟩ <;> after_results_simp

/-! ## The whole line -/

/-- The result buffer after the five stretches is the program's term of the arguments. -/
theorem out_eq (V : Valuation τ sig (Elt F)) :
    after opsC (after opsB2 (after opsB1 (after opsA1 (after opsA0 V)))) (main_v70 : DevRef τ sig)
      = RefTerm.refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  obtain ⟨c0, c1, c2, c3, c4, c5, c6⟩ := opsC_args (after opsB2 (after opsB1 (after opsA1 (after opsA0 V))))
  obtain ⟨b0, b1, b2, b3, b4, b5, b6⟩ := opsB2_args (after opsB1 (after opsA1 (after opsA0 V)))
  obtain ⟨d0, d1, d2, d3, d4, d5, d6⟩ := opsB1_args (after opsA1 (after opsA0 V))
  obtain ⟨e0, e1, e2, e3, e4, e5, e6⟩ := opsA1_args (after opsA0 V)
  obtain ⟨f0, f1, f2, f3, f4, f5, f6⟩ := opsA0_args V
  rw [C_v70, B2_v50, b4, b5, B1_v47, B1_v48, d0, d4, d5, A1_v29, A1_v3, A1_v6, e0, e1, e2, e3, e4, e5,
    A0_v3, A0_v6, f0, f1, f2, f3, f4, f5]
  rfl

/-- No stretch writes an argument. -/
theorem args_eq (V : Valuation τ sig (Elt F)) :
    let W := after opsC (after opsB2 (after opsB1 (after opsA1 (after opsA0 V))))
    W (main_arg0 : DevRef τ sig) = V (main_arg0 : DevRef τ sig)
      ∧ W (main_arg1 : DevRef τ sig) = V (main_arg1 : DevRef τ sig)
      ∧ W (main_arg2 : DevRef τ sig) = V (main_arg2 : DevRef τ sig)
      ∧ W (main_arg3 : DevRef τ sig) = V (main_arg3 : DevRef τ sig)
      ∧ W (main_arg4 : DevRef τ sig) = V (main_arg4 : DevRef τ sig)
      ∧ W (main_arg5 : DevRef τ sig) = V (main_arg5 : DevRef τ sig)
      ∧ W (main_arg6 : DevRef τ sig) = V (main_arg6 : DevRef τ sig) := by
  intro W
  obtain ⟨c0, c1, c2, c3, c4, c5, c6⟩ := opsC_args (after opsB2 (after opsB1 (after opsA1 (after opsA0 V))))
  obtain ⟨b0, b1, b2, b3, b4, b5, b6⟩ := opsB2_args (after opsB1 (after opsA1 (after opsA0 V)))
  obtain ⟨d0, d1, d2, d3, d4, d5, d6⟩ := opsB1_args (after opsA1 (after opsA0 V))
  obtain ⟨e0, e1, e2, e3, e4, e5, e6⟩ := opsA1_args (after opsA0 V)
  obtain ⟨f0, f1, f2, f3, f4, f5, f6⟩ := opsA0_args V
  exact ⟨c0.trans (b0.trans (d0.trans (e0.trans f0))), c1.trans (b1.trans (d1.trans (e1.trans f1))),
    c2.trans (b2.trans (d2.trans (e2.trans f2))), c3.trans (b3.trans (d3.trans (e3.trans f3))),
    c4.trans (b4.trans (d4.trans (e4.trans f4))), c5.trans (b5.trans (d5.trans (e5.trans f5))),
    c6.trans (b6.trans (d6.trans (e6.trans f6)))⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = RefTerm.refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      have a := args_eq (launchContents m c)
      ⟨(h c main_v70).trans (out_eq (launchContents m c)), (h c main_arg0).trans a.1, (h c main_arg1).trans a.2.1,
        (h c main_arg2).trans a.2.2.1, (h c main_arg3).trans a.2.2.2.1, (h c main_arg4).trans a.2.2.2.2.1,
        (h c main_arg5).trans a.2.2.2.2.2.1, (h c main_arg6).trans a.2.2.2.2.2.2⟩)
    (run_after m ρ)

end Cert.ReferenceIdeal.RefRun

end
-- ==== Proof.RefVal.lean ====
/-
  The plain program's term read index by index over the extended reals: a product with the transposed weight is rows
  against rows; a broadcast row reads its column's entry; a column total is zero plus the column's sum; the variance's
  divisor is 50000 − 0, which is positive, so the guarded quotient is the quotient.
-/
import proofs.«100133_j30202210025887_1_alg».proof.Proof.RefTerm
import proofs.«100133_j30202210025887_1_alg».proof.Proof.Spec
import proofs.«100133_j30202210025887_1_alg».proof.Proof.LibDot
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Gen Idealize.ShloMosaic Idealize.ShloMosaic.ValueIdx

/-! ## Layout operations read at an index -/

/-- A scalar laid over any shape reads the scalar. -/
theorem bcScalar_apply {α : Type} {T : Shape} (h : S_.BroadcastsInDim T (![] : Fin 0 → Fin T.rank)) (x : S_.Idx → α) (j : T.Idx) :
    broadcastInDim T ![] h x j = x ix0 :=
  broadcastInDim_apply ![] h x j ix0 fun a => a.elim0

/-- A per-column vector laid along every row reads, at `(p, q)`, its entry `q`. -/
theorem bcRow_apply (a : FVec Ideal S128 .f32) (p : Fin 50000) (q : Fin 128) :
    RefTerm.bcRow a (ix2 p q) = a (ix1 q) := by
  unfold RefTerm.bcRow
  refine (broadcastInDim_apply ![0, 1] bcast_S1x128_S50000x128_0_1 _ (ix2 p q) (ix2 (0 : Fin 1) q)
    (fun c => match c with | ⟨0, _⟩ => rfl | ⟨1, _⟩ => rfl)).trans ?_
  exact broadcastInDim_apply ![1] bcast_S128_S1x128_1 a (ix2 (0 : Fin 1) q) (ix1 q)
    (fun c => match c with | ⟨0, _⟩ => rfl)

/-! ## The product with the transposed weight -/

/-- The product's dimension record is the plain rows-by-columns record. -/
theorem dot_rec : (dot_S50000x128_S128x128_S50000x128_1_0_0_1_n_n : DotDims ⟨2, ![50000, 128]⟩ ⟨2, ![128, 128]⟩ ⟨2, ![50000, 128]⟩)
    = DotDims.plain 50000 128 128 := rfl

/-- Rows of `x` against rows of `W`. -/
theorem dotT_eq (x : FVec Ideal S50000x128 .f32) (W : FVec Ideal S128x128 .f32) : RefTerm.dotT x W = Gcn.proj x W := by
  funext i
  obtain ⟨p, q, rfl⟩ : ∃ p q, i = ix2 p q := ⟨i 0, i 1, eq_ix2 i⟩
  unfold RefTerm.dotT
  show FloatOps.dotGeneral (dot_S50000x128_S128x128_S50000x128_1_0_0_1_n_n : DotDims ⟨2, ![50000, 128]⟩ ⟨2, ![128, 128]⟩ ⟨2, ![50000, 128]⟩)
    none .single x (transpose S128x128 [1, 0] W transposes_S128x128_S128x128_1_0) (ix2 p q) = _
  rw [dot_rec]
  refine (Cert.GNN.dotGeneral_plain_apply none .single x _ p q).trans ?_
  refine Finset.sum_congr rfl fun k _ => ?_
  exact congrArg (x (ix2 p k) * ·) (transpose_ix2_apply W transposes_S128x128_S128x128_1_0 k q)

/-! ## A column total -/

theorem reduces0 : S50000x128.Reduces [0] S128 := by decide

theorem lift0 (q : Fin 128) (k : Fin 50000) : reduces0.lift (ix1 q) k = ix2 k q :=
  funext fun c => Fin.ext (match c with | ⟨0, _⟩ => rfl | ⟨1, _⟩ => rfl)

/-- The sum over the rows, started from zero: zero plus the column's sum. -/
theorem rowSum_apply (v : FVec Ideal S50000x128 .f32) (q : Fin 128) :
    Host.reduceAdd v (constant S_ .f32 0x00000000#32) reducesTo_S50000x128_S128_d0 h_S_ (ix1 q)
      = Gcn.zeroF + ∑ p : Fin 50000, v (ix2 p q) := by
  unfold Host.reduceAdd
  rw [Ideal.hostReduceAdd_def]
  refine (Ideal.hostReduceAdd_single reducesTo_S50000x128_S128_d0 reduces0 v _ (ix1 q)).trans ?_
  refine congrArg (Gcn.zeroF + ·) ?_
  exact Finset.sum_congr rfl fun k _ => congrArg v (lift0 q k)

theorem colTot_apply (v : FVec Ideal S50000x128 .f32) (q : Fin 128) :
    RefTerm.colTot v (ix1 q) = Gcn.zeroF + Gcn.colSum v q := rowSum_apply v q

/-! ## The literals -/

/-- The row count's pattern denotes the real `50000`. -/
theorem cntN_eq : Gcn.cntN = ((50000 : ℝ) : EReal) := by
  unfold Gcn.cntN
  simp [Ideal.ofBits, Ideal.ieee, -EReal.coe_mul]; norm_num

/-- The variance's divisor: the count minus the integer zero, read exactly. -/
theorem cnt_apply : RefTerm.cnt (F := Ideal) ix0 = Gcn.cntN - (((0 : ℤ) : ℝ) : EReal) := rfl

/-- The divisor is positive, so the guard's bit is set. -/
theorem guard_apply : cmpf (F := Ideal) .ogt (RefTerm.cnt (F := Ideal)) (constant S_ .f32 0x00000000#32) ix0 = 1#1 := by
  rw [cmpf_apply, Ideal.cmpf_def, cnt_apply, constant_apply, Ideal.ofBits_zero_f32, cntN_eq]
  unfold Ideal.cmp
  have h : (0 : EReal) < ((50000 : ℝ) : EReal) - (((0 : ℤ) : ℝ) : EReal) := by
    rw [Int.cast_zero, EReal.coe_zero, sub_zero]
    exact_mod_cast (by norm_num : (0 : ℝ) < 50000)
  simp only [h, decide_true]
  rfl

/-! ## The quotient, the inverse square root and the two row broadcasts, read at an index -/

theorem hostDivf_apply {s : Shape} (a c : FVec Ideal s .f32) (i : s.Idx) : Host.divf a c i = Ideal.div (a i) (c i) := rfl

theorem hostRsqrt_apply {s : Shape} (a : FVec Ideal s .f32) (i : s.Idx) : Host.rsqrt a i = Ideal.rsqrt (a i) := rfl

/-- A one-row array laid down the rows reads, at `(p, q)`, the row at `(0, q)`. -/
theorem oneRow_apply (y : FVec Ideal S1x128 .f32) (p : Fin 50000) (q : Fin 128) :
    broadcastInDim S50000x128 ![0, 1] bcast_S1x128_S50000x128_0_1 y (ix2 p q) = y (ix2 (0 : Fin 1) q) :=
  broadcastInDim_apply ![0, 1] bcast_S1x128_S50000x128_0_1 y (ix2 p q) (ix2 (0 : Fin 1) q)
    (fun c => match c with | ⟨0, _⟩ => rfl | ⟨1, _⟩ => rfl)

/-- A vector as a one-row array reads, at `(0, q)`, its entry `q`. -/
theorem rowOf_apply (a : FVec Ideal S128 .f32) (q : Fin 128) :
    broadcastInDim S1x128 ![1] bcast_S128_S1x128_1 a (ix2 (0 : Fin 1) q) = a (ix1 q) :=
  broadcastInDim_apply ![1] bcast_S128_S1x128_1 a (ix2 (0 : Fin 1) q) (ix1 q)
    (fun c => match c with | ⟨0, _⟩ => rfl)

/-- The row count as a constant array. -/
theorem cntConst_apply (j : S_.Idx) : constant (F := Ideal) S_ .f32 0x47435000#32 j = Gcn.cntN := rfl

/-! ## Mean, deviation, variance -/

/-- A column's mean. -/
def mu (v : S50000x128.Idx → EReal) (q : Fin 128) : EReal := Ideal.div (Gcn.zeroF + Gcn.colSum v q) Gcn.cntN

theorem mean_apply (v : FVec Ideal S50000x128 .f32) (q : Fin 128) : RefTerm.mean v (ix1 q) = mu v q := by
  unfold RefTerm.mean
  rw [hostDivf_apply, colTot_apply, bcScalar_apply, cntConst_apply]
  rfl

theorem dev_apply (v : FVec Ideal S50000x128 .f32) (p : Fin 50000) (q : Fin 128) :
    RefTerm.dev v (ix2 p q) = v (ix2 p q) - mu v q := by
  unfold RefTerm.dev
  rw [subf_apply, oneRow_apply, hostDivf_apply, rowOf_apply, colTot_apply, bcScalar_apply, cntConst_apply]
  rfl

/-- A column's variance: the mean of the squared deviations over the count minus zero. -/
def sigma2 (v : S50000x128.Idx → EReal) (q : Fin 128) : EReal :=
  Ideal.div (Gcn.zeroF + Gcn.colSum (fun i => (v i - mu v (i 1)) * (v i - mu v (i 1))) q) (Gcn.cntN - (((0 : ℤ) : ℝ) : EReal))

theorem var_apply (v : FVec Ideal S50000x128 .f32) (q : Fin 128) : RefTerm.var v (ix1 q) = sigma2 v q := by
  have hs : (∑ p : Fin 50000, mulf (RefTerm.dev v) (RefTerm.dev v) (ix2 p q))
      = Gcn.colSum (fun i => (v i - mu v (i 1)) * (v i - mu v (i 1))) q :=
    Finset.sum_congr rfl fun p _ => by
      show RefTerm.dev v (ix2 p q) * RefTerm.dev v (ix2 p q) = (v (ix2 p q) - mu v q) * (v (ix2 p q) - mu v q)
      rw [dev_apply]
  unfold RefTerm.var
  rw [select_apply, bcScalar_apply, guard_apply, select_one, hostDivf_apply, rowSum_apply, bcScalar_apply, cnt_apply, hs]
  rfl

/-! ## The normalisation and the whole term -/

theorem out_apply (v : FVec Ideal S50000x128 .f32) (γ β : FVec Ideal S128 .f32) (p : Fin 50000) (q : Fin 128) :
    RefTerm.out v γ β (ix2 p q)
      = Gcn.bn v (Gcn.asRow (mu v)) (Gcn.asRow (sigma2 v)) (Gcn.asRow fun q => γ (ix1 q)) (Gcn.asRow fun q => β (ix1 q)) (ix2 p q) := by
  unfold RefTerm.out Gcn.bn Gcn.asRow
  rw [maximumf_apply, addf_apply, mulf_apply, mulf_apply, subf_apply, bcRow_apply, bcRow_apply, bcRow_apply, bcRow_apply,
    bcScalar_apply, mean_apply]
  rw [hostRsqrt_apply, addf_apply, var_apply, bcScalar_apply]
  rfl

theorem pre_eq (x : FVec Ideal S50000x128 .f32) (W : FVec Ideal S128x128 .f32) (b : FVec Ideal S128 .f32)
    (rW : FVec Ideal S128x128 .f32) (e : IVec S2x800000 32) :
    RefTerm.pre x W b rW e = Gcn.preR (Gcn.graphAgg (F := Ideal) (Gcn.proj x W) e) (Gcn.proj x rW) b := by
  unfold RefTerm.pre
  rw [dotT_eq, dotT_eq]
  funext i
  obtain ⟨p, q, rfl⟩ : ∃ p q, i = ix2 p q := ⟨i 0, i 1, eq_ix2 i⟩
  rw [addf_apply, addf_apply, bcRow_apply]
  rfl

theorem refTerm_eq (x : FVec Ideal S50000x128 .f32) (W : FVec Ideal S128x128 .f32) (b : FVec Ideal S128 .f32)
    (rW : FVec Ideal S128x128 .f32) (γ β : FVec Ideal S128 .f32) (e : IVec S2x800000 32) :
    RefTerm.refTerm (F := Ideal) x W b rW γ β e = Gcn.refArr x W b rW γ β e := by
  funext i
  obtain ⟨p, q, rfl⟩ : ∃ p q, i = ix2 p q := ⟨i 0, i 1, eq_ix2 i⟩
  unfold RefTerm.refTerm
  rw [pre_eq]
  exact out_apply _ γ β p q

end Cert.ReferenceIdeal.RefVal

end
-- ==== Proof.Fin.lean ====
/-
  Every entry of the graph step's result is a real number when every entry of the projected rows is: the degree
  weights are real whatever the degree (the inverse square root of a positive extended real is real, and the weight is
  zero where the degree is not positive), a gathered entry is an entry, and a scatter-sum is a finite sum of reals.
-/
import proofs.«100133_j30202210025887_1_alg».proof.Proof.Spec
import Idealize.ShloMosaic.PureOps.Ideal.Laws

noncomputable section

namespace Cert.Gcn

open Idealize.ShloMosaic Idealize.ShloMosaic.ValueIdx

/-- Zero is a real. -/
theorem IsFin.zero : IsFin (0 : EReal) := ⟨0, rfl⟩

/-- The sum of two reals is a real. -/
private theorem isFin_add {a b : EReal} (ha : IsFin a) (hb : IsFin b) : IsFin (a + b) := by
  obtain ⟨r, rfl⟩ := ha
  obtain ⟨s, rfl⟩ := hb
  exact ⟨r + s, (EReal.coe_add r s).symm⟩

/-- A finite sum of reals is a real. -/
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact isFin_add (h a (Finset.mem_insert_self a s)) (ih fun i hi => h i (Finset.mem_insert_of_mem hi))
theorem IsFin.add {a b : EReal} (ha : IsFin a) (hb : IsFin b) : IsFin (a + b) := by
  exact isFin_add ha hb
theorem IsFin.mul {a b : EReal} (ha : IsFin a) (hb : IsFin b) : IsFin (a * b) := by
  obtain ⟨r, rfl⟩ := ha
  obtain ⟨s, rfl⟩ := hb
  exact ⟨r * s, (EReal.coe_mul r s).symm⟩

/-- A row-by-row product of real arrays is real. -/
theorem proj_fin (x : S50000x128.Idx → EReal) (W : S128x128.Idx → EReal) (hx : ∀ i, IsFin (x i)) (hW : ∀ i, IsFin (W i)) :
    ∀ i, IsFin (proj x W i) := by
  intro i
  unfold proj
  exact IsFin.sum _ _ fun k _ => IsFin.mul (hx _) (hW _)

/-! ## The host operations keep real arrays real -/

/-- Every entry of a gathered array is an entry of the operand. -/
theorem gather_fin {s si t : Shape} {w : Nat} (d : GatherDims s si t) (x : s.Idx → EReal) (idx : IVec si w)
    (hx : ∀ i, IsFin (x i)) : ∀ j, IsFin (Host.gather d x idx j) := fun _ => hx _

/-- Every entry of a broadcast array is an entry of the operand. -/
theorem bcast_fin {s t : Shape} (dims : Fin s.rank → Fin t.rank) (h : s.BroadcastsInDim t dims) (x : s.Idx → EReal)
    (hx : ∀ i, IsFin (x i)) : ∀ j, IsFin (broadcastInDim t dims h x j) := fun _ => hx _

/-- The zero literal is the real zero. -/
theorem zeroConst_fin : ∀ i, IsFin (constant (F := Ideal) S_ .f32 0x00000000#32 i) := by
  intro i
  rw [constant_apply, Ideal.ofBits_zero_f32]
  exact IsFin.zero

/-- A scatter-sum of real updates into a real array is real: each entry is the operand's plus a finite sum of updates. -/
theorem scatterAdd_fin {s si su : Shape} {w : Nat} (d : ScatterDims s si su) (x : s.Idx → EReal) (idx : IVec si w)
    (upd : su.Idx → EReal) (hx : ∀ i, IsFin (x i)) (hu : ∀ j, IsFin (upd j)) :
    ∀ i, IsFin (Host.scatterAdd (F := Ideal) (φ := .f32) d x idx upd i) := by
  intro i
  show IsFin (Ideal.hostScatterAdd d x idx upd i)
  unfold Ideal.hostScatterAdd
  exact IsFin.add (hx i) (IsFin.sum _ _ fun j _ => hu j)

/-! ## The degree weights -/

/-- The inverse square root of a positive extended real is real: `(√r)⁻¹` at a positive real, zero at `⊤`. -/
theorem rsqrt_fin_of_pos {x : EReal} (hx : 0 < x) : IsFin (Ideal.rsqrt x) := by
  induction x using EReal.rec with
  | bot => exact absurd hx not_lt_bot
  | top => rw [Ideal.rsqrt_top]; exact IsFin.zero
  | coe r =>
    have hr : 0 < r := by exact_mod_cast hx
    rw [Ideal.rsqrt_coe, if_neg (not_lt.mpr hr.le), if_neg hr.ne']
    exact ⟨_, rfl⟩

/-- The ordered "greater than" comparison answers one only where the strict inequality holds. -/
theorem lt_of_cmp_ogt {x y : EReal} (h : Ideal.cmp .ogt x y = 1) : y < x := by
  unfold Ideal.cmp at h
  by_contra hn
  simp [hn] at h

/-- The weight `deg^(-1/2)` (zero where the degree is not positive) is real whatever the degree is. -/
theorem dinvOf_fin (deg : S50000.Idx → EReal) : ∀ i, IsFin (dinvOf (F := Ideal) deg i) := by
  intro i
  unfold dinvOf
  rw [select_apply]
  unfold Scalar.select
  split
  · rename_i hc
    have hc' : Ideal.cmp .ogt (deg i) (Ideal.ofBits .f32 0x00000000#32) = 1 := hc
    rw [Ideal.ofBits_zero_f32] at hc'
    exact rsqrt_fin_of_pos (lt_of_cmp_ogt hc')
  · exact bcast_fin _ _ _ zeroConst_fin i

/-- An edge's weight, the product of two gathered degree weights, is real. -/
theorem normOf_fin (dinv : S50000.Idx → EReal) (src dst : IVec S850000 32) (hd : ∀ i, IsFin (dinv i)) :
    ∀ j, IsFin (normOf (F := Ideal) dinv src dst j) := by
  intro j
  unfold normOf
  rw [mulf_apply]
  exact IsFin.mul (gather_fin _ _ _ hd j) (gather_fin _ _ _ hd j)

/-- The edge weights of an edge list are real. -/
theorem edgeNorm_fin (e : IVec S2x800000 32) : ∀ j, IsFin (edgeNorm (F := Ideal) e j) := by
  unfold edgeNorm
  exact normOf_fin _ _ _ (dinvOf_fin _)

/-- The normalised neighbourhood sum of real rows is real. -/
theorem graphAgg_fin (h : S50000x128.Idx → EReal) (e : IVec S2x800000 32) (hh : ∀ i, IsFin (h i)) :
    ∀ i, IsFin (graphAgg (F := Ideal) h e i) := by
  unfold graphAgg aggOf
  refine scatterAdd_fin _ _ _ _ (bcast_fin _ _ _ zeroConst_fin) ?_
  intro j
  rw [mulf_apply]
  exact IsFin.mul (gather_fin _ _ _ hh j) (bcast_fin _ _ _ (bcast_fin _ _ _ (edgeNorm_fin e)) j)

end Cert.Gcn

end
-- ==== Proof.Algebra.lean ====
/-
  The two results agree over the reals. With every entry of the pre-activation a real number: the tile-by-tile
  column sum is the column sum; the two bracketings of agg + res + bias agree; and the mean of squares minus the
  squared mean is the mean of the squared deviations (both divided by the same count 50000), so the two
  normalisations are one.
-/
import proofs.«100133_j30202210025887_1_alg».proof.Proof.Spec
import proofs.«100133_j30202210025887_1_alg».proof.Proof.Fin
import Idealize.ShloMosaic.PureOps.Ideal.Laws
import Mathlib.Logic.Equiv.Fin.Basic
import Mathlib.Algebra.BigOperators.Fin
import Mathlib.Algebra.BigOperators.Ring.Finset
import Mathlib.Data.EReal.Operations
import Mathlib.Tactic.Ring
import Mathlib.Tactic.FieldSimp
import Mathlib.Tactic.NormNum

noncomputable section

namespace Cert.Gcn

open Idealize.ShloMosaic Idealize.ShloMosaic.ValueIdx

/-! ## The tiled column sum -/

/-- After tile `n` the accumulator holds zero plus the sum over the tiles `0, …, n` of each tile's rows. -/
theorem blockSum_range (v : S50000x128.Idx → EReal) (q : Fin 128) (n : ℕ) :
    blockSum v q n = zeroF + ∑ t ∈ Finset.range (n + 1), ∑ r : Fin 2000, v (ix2 (rowIdx t r) q) := by
  induction n with
  | zero => simp [blockSum]
  | succ n ih => rw [blockSum, ih, Finset.sum_range_succ _ (n + 1), add_assoc]

/-- Row `r` of tile `t < 25` is row `2000·t + r`: the pair `(t, r)` read as one index below `25·2000`. -/
theorem rowIdx_eq (t : Fin 25) (r : Fin 2000) :
    rowIdx t.val r = (finProdFinEquiv (t, r) : Fin (25 * 2000)) := by
  apply Fin.ext
  have h1 := t.isLt
  have h2 := r.isLt
  simp only [rowIdx, finProdFinEquiv_apply_val]
  omega

/-- The 25 tiles of 2000 rows are the 50000 rows, each once. -/
theorem sum_tiles (f : Fin 50000 → EReal) :
    ∑ t ∈ Finset.range 25, ∑ r : Fin 2000, f (rowIdx t r) = ∑ p : Fin 50000, f p := by
  rw [← Fin.sum_univ_eq_sum_range (fun t => ∑ r : Fin 2000, f (rowIdx t r)) 25]
  rw [← Fintype.sum_prod_type' (fun (t : Fin 25) (r : Fin 2000) => f (rowIdx t.val r))]
  exact Fintype.sum_equiv (finProdFinEquiv : Fin 25 × Fin 2000 ≃ Fin (25 * 2000)) _ _
    (fun p => by rw [rowIdx_eq])

/-- Accumulating a column tile by tile from zero gives zero plus the column's sum (no finiteness needed:
    the extended reals add commutatively and associatively). -/
theorem blockSum_eq (v : S50000x128.Idx → EReal) (q : Fin 128) : blockSum v q 24 = zeroF + colSum v q := by
  rw [blockSum_range, colSum]
  exact congrArg (zeroF + ·) (sum_tiles fun p => v (ix2 p q))

/-! ## Real arithmetic inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row count the programs carry is the real `50000`. -/
theorem cntN_eq : cntN = ((50000 : ℝ) : EReal) := by
  simp [cntN, Ideal.ofBits, Ideal.ieee, -EReal.coe_mul]; norm_num

/-- The zero the programs carry is `0`. -/
theorem zeroF_eq : zeroF = 0 := by
  simp [zeroF]

/-- The mean of squares minus the squared mean is the mean of the squared deviations from the mean. -/
theorem var_identity {ι : Type*} [Fintype ι] (a : ι → ℝ) (N : ℝ) (hN : (Fintype.card ι : ℝ) = N) (hN0 : N ≠ 0) :
    (∑ p, a p * a p) / N - ((∑ p, a p) / N) * ((∑ p, a p) / N)
      = (∑ p, (a p - (∑ p, a p) / N) * (a p - (∑ p, a p) / N)) / N := by
  generalize hm : (∑ p, a p) / N = m
  have hS : ∑ p, a p = N * m := by rw [← hm]; field_simp
  have h1 : ∑ p, (a p - m) * (a p - m) = ∑ p, a p * a p - 2 * m * ∑ p, a p + N * (m * m) := by
    have h2 : ∀ p, (a p - m) * (a p - m) = a p * a p - 2 * m * a p + m * m := fun p => by ring
    simp only [h2, Finset.sum_add_distrib, Finset.sum_sub_distrib, ← Finset.mul_sum, Finset.sum_const,
      Finset.card_univ, nsmul_eq_mul, hN]
    ring
  rw [h1, hS]
  field_simp
  ring

/-! ## The column quantities of a real array -/

/-- The column sum of a real array is the real column sum. -/
theorem colSum_coe (w : S50000x128.Idx → ℝ) (q : Fin 128) :
    colSum (fun i => (w i : EReal)) q = ((∑ p : Fin 50000, w (ix2 p q) : ℝ) : EReal) := by
  rw [colSum, coe_finset_sum]

/-- The column mean of a real array is the real column mean. -/
theorem mean_coe (w : S50000x128.Idx → ℝ) (q : Fin 128) :
    Ideal.div (zeroF + colSum (fun i => (w i : EReal)) q) cntN
      = (((∑ p : Fin 50000, w (ix2 p q)) / 50000 : ℝ) : EReal) := by
  rw [cntN_eq, zeroF_eq, zero_add, colSum_coe, Ideal.div_coe (by norm_num), ← EReal.coe_mul]
  exact congrArg _ (by ring)

/-- The two normalisations of one real array agree: same mean, and the mean of squares minus the squared mean is the
    mean of the squared deviations. -/
theorem bn_real (w : S50000x128.Idx → ℝ) (g bt : S1x128.Idx → EReal) :
    bn (fun i => (w i : EReal))
        (asRow fun q => Ideal.div (blockSum (fun i => (w i : EReal)) q 24) cntN)
        (asRow fun q => Ideal.div (blockSum (fun i => (w i : EReal) * (w i : EReal)) q 24) cntN
          - Ideal.div (blockSum (fun i => (w i : EReal)) q 24) cntN
            * Ideal.div (blockSum (fun i => (w i : EReal)) q 24) cntN) g bt
      = bn (fun i => (w i : EReal))
        (asRow fun q => Ideal.div (zeroF + colSum (fun i => (w i : EReal)) q) cntN)
        (asRow fun q => Ideal.div (zeroF + colSum (fun i =>
            ((w i : EReal) - Ideal.div (zeroF + colSum (fun i => (w i : EReal)) (i 1)) cntN)
              * ((w i : EReal) - Ideal.div (zeroF + colSum (fun i => (w i : EReal)) (i 1)) cntN)) q)
          (cntN - (((0 : ℤ) : ℝ) : EReal))) g bt := by
  have hμ : (fun q => Ideal.div (blockSum (fun i => (w i : EReal)) q 24) cntN)
      = fun q => Ideal.div (zeroF + colSum (fun i => (w i : EReal)) q) cntN :=
    funext fun q => by rw [blockSum_eq]
  have hσ : (fun q => Ideal.div (blockSum (fun i => (w i : EReal) * (w i : EReal)) q 24) cntN
          - Ideal.div (blockSum (fun i => (w i : EReal)) q 24) cntN
            * Ideal.div (blockSum (fun i => (w i : EReal)) q 24) cntN)
      = fun q => Ideal.div (zeroF + colSum (fun i =>
            ((w i : EReal) - Ideal.div (zeroF + colSum (fun i => (w i : EReal)) (i 1)) cntN)
              * ((w i : EReal) - Ideal.div (zeroF + colSum (fun i => (w i : EReal)) (i 1)) cntN)) q)
          (cntN - (((0 : ℤ) : ℝ) : EReal)) := by
    funext q
    have hsq : (fun i : S50000x128.Idx => (w i : EReal) * (w i : EReal)) = fun i => ((w i * w i : ℝ) : EReal) :=
      funext fun i => (EReal.coe_mul _ _).symm
    have hdev : (fun i : S50000x128.Idx =>
          ((w i : EReal) - Ideal.div (zeroF + colSum (fun i => (w i : EReal)) (i 1)) cntN)
            * ((w i : EReal) - Ideal.div (zeroF + colSum (fun i => (w i : EReal)) (i 1)) cntN))
        = fun i => (((w i - (∑ p : Fin 50000, w (ix2 p (i 1))) / 50000)
            * (w i - (∑ p : Fin 50000, w (ix2 p (i 1))) / 50000) : ℝ) : EReal) :=
      funext fun i => by
        have hm := mean_coe w (i 1)
        rw [hm, ← EReal.coe_sub, ← EReal.coe_mul]
    have h0 : cntN - (((0 : ℤ) : ℝ) : EReal) = cntN := by
      rw [Int.cast_zero, EReal.coe_zero, sub_zero]
    rw [blockSum_eq, blockSum_eq, hsq, hdev, h0, mean_coe, mean_coe, mean_coe, ← EReal.coe_mul, ← EReal.coe_sub]
    exact congrArg _ (var_identity (fun p : Fin 50000 => w (ix2 p q)) 50000 (by simp) (by norm_num))
  rw [hμ, hσ]

/-! ## The two results -/

/-- The two bracketings of `agg + res + bias` agree. -/
theorem preK_eq_preR (agg res : S50000x128.Idx → EReal) (b : S128.Idx → EReal) :
    preK agg res (asRow fun q => b (ix1 q)) = preR agg res b := by
  funext i
  exact add_right_comm (agg i) (res i) (b (ix1 (i 1)))

/-- The two programs' results agree when the inputs and the graph step's result are real. -/
theorem kerArr_eq_refArr (x : S50000x128.Idx → EReal) (W : S128x128.Idx → EReal) (b : S128.Idx → EReal)
    (rW : S128x128.Idx → EReal) (γ β : S128.Idx → EReal) (e : IVec S2x800000 32)
    (hx : ∀ i, IsFin (x i)) (hW : ∀ i, IsFin (W i)) (hb : ∀ i, IsFin (b i)) (hrW : ∀ i, IsFin (rW i)) :
    kerArr x W b rW γ β e = refArr x W b rW γ β e := by
  have hA := graphAgg_fin (proj x W) e (proj_fin x W hx hW)
  have hR := proj_fin x rW hx hrW
  have hv : ∀ i, IsFin (preR (graphAgg (F := Ideal) (proj x W) e) (proj x rW) b i) :=
    fun i => IsFin.add (IsFin.add (hA i) (hb _)) (hR i)
  choose w hw using hv
  have hvw : preR (graphAgg (F := Ideal) (proj x W) e) (proj x rW) b = fun i => (w i : EReal) := funext hw
  unfold kerArr refArr
  rw [preK_eq_preR, hvw]
  exact bn_real w _ _

end Cert.Gcn

end
-- ==== Proof.PreFin.lean ====
/-
  The stated precondition says that every entry of each float argument has absolute value below plus infinity; such an
  entry is a real number.
-/
import proofs.«100133_j30202210025887_1_alg».proof.Defs
import proofs.«100133_j30202210025887_1_alg».proof.Proof.Gen.Pre_finite_inputs
import proofs.«100133_j30202210025887_1_alg».proof.Proof.Gen.KernelIdeal
import proofs.«100133_j30202210025887_1_alg».proof.Proof.Spec
import proofs.«100133_j30202210025887_1_alg».proof.Proof.Fin
import Idealize.ShloMosaic.Lib.ReduceAll

noncomputable section

namespace Cert.Proof.PreFin

open Idealize.ShloMosaic Idealize.ShloMosaic.ValueIdx Idealize.SL.Sem

/-- The rank-zero shape has one index. -/
instance subsingleton_scalar_idx : Subsingleton Cert.Pre_finite_inputs.S_.Idx := ⟨fun a b => funext fun d => d.elim0⟩

/-- An extended real whose absolute value `max x (-x)` compares below plus infinity is a real. -/
theorem fin_of_abs_lt {x : EReal}
    (h : Ideal.cmp .olt (max x (-x)) (Ideal.ofBits .f32 0x7F800000#32) = 1#1) : Gcn.IsFin x := by
  have hinf : Ideal.ofBits .f32 0x7F800000#32 = ⊤ := by simp [Ideal.ofBits, Ideal.ieee]
  rw [hinf] at h
  have hlt : max x (-x) < ⊤ := by
    unfold Ideal.cmp at h
    by_contra hn
    simp [hn] at h
  induction x using EReal.rec with
  | bot => simp at hlt
  | top => simp at hlt
  | coe r => exact ⟨r, rfl⟩

/-- One "all entries are below infinity in absolute value" test that answers one makes every entry a real. -/
theorem fin_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant (F := Ideal) Cert.Pre_finite_inputs.S_ .f32 0x7F800000#32)))
          (constantI Cert.Pre_finite_inputs.S_ 1 1#1) hr hu ix0 = 1#1) :
    ∀ i, Gcn.IsFin (a i) := by
  intro i
  have hi := Host.reduce_andi_all _ _ hr hu ix0 e i
  exact fin_of_abs_lt hi

/-- The precondition, over arrays of the literal types: the four arrays the law reads are real entry by entry. -/
theorem fn_fin (a0 : FVec Ideal Cert.Pre_finite_inputs.S50000x128 .f32) (a1 : FVec Ideal Cert.Pre_finite_inputs.S128x128 .f32)
    (a2 : FVec Ideal Cert.Pre_finite_inputs.S128 .f32) (a3 : FVec Ideal Cert.Pre_finite_inputs.S128x128 .f32)
    (a4 a5 : FVec Ideal Cert.Pre_finite_inputs.S128 .f32) (a6 : IVec Cert.Pre_finite_inputs.S2x800000 32)
    (h : Cert.Pre_finite_inputs.fn (F := Ideal) a0 a1 a2 a3 a4 a5 a6 = fun _ => 1#1) :
    (∀ i, Gcn.IsFin (a0 i)) ∧ (∀ i, Gcn.IsFin (a1 i)) ∧ (∀ i, Gcn.IsFin (a2 i)) ∧ (∀ i, Gcn.IsFin (a3 i)) := by
  have h0 := congrFun h ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fin_of_all a0 _ _ _ e0, fin_of_all a1 _ _ _ e1, fin_of_all a2 _ _ _ e2, fin_of_all a3 _ _ _ e3⟩

theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Gcn.IsFin (m ((c.tc : Thread Cert.KernelIdeal.nD Cert.KernelIdeal.τ).loc Cert.KernelIdeal.main_arg0) i))
    ∧ (∀ i, Gcn.IsFin (m ((c.tc : Thread Cert.KernelIdeal.nD Cert.KernelIdeal.τ).loc Cert.KernelIdeal.main_arg1) i))
    ∧ (∀ i, Gcn.IsFin (m ((c.tc : Thread Cert.KernelIdeal.nD Cert.KernelIdeal.τ).loc Cert.KernelIdeal.main_arg2) i))
    ∧ (∀ i, Gcn.IsFin (m ((c.tc : Thread Cert.KernelIdeal.nD Cert.KernelIdeal.τ).loc Cert.KernelIdeal.main_arg3) i)) :=
  fn_fin _ _ _ _ _ _ _ (h c)

end Cert.Proof.PreFin

end
-- ==== Proof.lean ====
/-
  One graph-convolution block with batch normalisation, computed by two programs. A node array (50000 rows of 128
  features) is projected twice; the graph step adds, into each node's row, the projected rows of its neighbours weighted
  by the inverse square roots of the two end degrees; the pre-activation is that sum plus the second projection plus the
  bias; its column mean and variance over the rows normalise it, and the result is scaled, shifted and clamped at zero.
  The tiled program accumulates the column sums tile by tile and takes the variance as the mean of squares minus the
  squared mean; the plain program takes one sum and the mean of squared deviations. The three frame parts are the
  programs' runs with their argument arrays unchanged; the idealisation rewrote nothing, so its part is trivial; the
  algebraic part reads both runs' results as the two index-by-index terms `kerArr` and `refArr` over the extended reals
  and shows them equal where the float arguments are real entry by entry, which the stated precondition gives.
-/
import proofs.«100133_j30202210025887_1_alg».proof.Defs
import proofs.«100133_j30202210025887_1_alg».proof.Proof.Gen.Kernel
import proofs.«100133_j30202210025887_1_alg».proof.Proof.Gen.Kernel.Skeleton
import proofs.«100133_j30202210025887_1_alg».proof.Proof.Gen.Kernel.Launch
import proofs.«100133_j30202210025887_1_alg».proof.Proof.Gen.Kernel.Points
import proofs.«100133_j30202210025887_1_alg».proof.Proof.Gen.Kernel.Frame
import proofs.«100133_j30202210025887_1_alg».proof.Proof.Gen.KernelIdeal
import proofs.«100133_j30202210025887_1_alg».proof.Proof.Gen.KernelIdeal.Skeleton
import proofs.«100133_j30202210025887_1_alg».proof.Proof.Gen.KernelIdeal.Launch
import proofs.«100133_j30202210025887_1_alg».proof.Proof.Gen.KernelIdeal.Points
import proofs.«100133_j30202210025887_1_alg».proof.Proof.Gen.KernelIdeal.Frame
import proofs.«100133_j30202210025887_1_alg».proof.Proof.Gen.ReferenceIdeal
import proofs.«100133_j30202210025887_1_alg».proof.Proof.Gen.Pre_finite_inputs
import proofs.«100133_j30202210025887_1_alg».proof.Proof.KRun
import proofs.«100133_j30202210025887_1_alg».proof.Proof.KValue
import proofs.«100133_j30202210025887_1_alg».proof.Proof.RefRun
import proofs.«100133_j30202210025887_1_alg».proof.Proof.RefVal
import proofs.«100133_j30202210025887_1_alg».proof.Proof.Algebra
import proofs.«100133_j30202210025887_1_alg».proof.Proof.PreFin
import Idealize.ShloMosaic.Adequacy
import Idealize.ShloMosaic.Init

noncomputable section

namespace Cert.Proof

open Idealize.ShloMosaic Idealize.SL.Sem Cert.Kernel

/-- The tiled program runs and leaves its arguments as they were. -/
theorem frame_k : Cert.frame_Kernel := fun m ρ _ => Cert.Kernel.Gen.frame m ρ
/-- So does its idealisation. -/
theorem frame_ki : Cert.frame_KernelIdeal := fun m ρ _ => Cert.KernelIdeal.Gen.frame m ρ
/-- So does the plain program. -/
theorem frame_ri : Cert.frame_ReferenceIdeal := fun m ρ _ =>
  (θ_run Cert.ReferenceIdeal.defs _ _).mono (fun _ h c => (h c).2) (Cert.ReferenceIdeal.RefRun.run (F := Ideal) m ρ)

/-- The idealisation rewrote nothing. -/
theorem preserves : Cert.preserves_Kernel_KernelIdeal := trivial

/-- Over the extended reals the tiled program's result array is `kerArr` of its arguments and the plain program's is
    `refArr` of arguments that agree; the precondition makes the four float arrays the law reads real entry by entry,
    and there the two terms are equal. -/
theorem algebraic : Cert.algebraic_KernelIdeal_ReferenceIdeal := by
  intro m ρ m' ρ' hpre hagree
  refine ⟨fun c => Cert.Gcn.kerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    (θ_run Cert.KernelIdeal.defs _ _).mono
      (fun _ h c => ⟨(h c).1.trans (Cert.KernelIdeal.KValue.value m ρ c), (h c).2⟩)
      (Cert.KernelIdeal.GenR.run (F := Ideal) m ρ), ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3⟩ := Cert.Proof.PreFin.fin_of_pre m hpre c
  rw [Cert.ReferenceIdeal.RefVal.refTerm_eq, (hagree c).1, (hagree c).2.1, (hagree c).2.2.1, (hagree c).2.2.2.1,
    (hagree c).2.2.2.2.1, (hagree c).2.2.2.2.2.1, (hagree c).2.2.2.2.2.2]
  exact (Cert.Gcn.kerArr_eq_refArr _ _ _ _ _ _ _ h0 h1 h2 h3).symm

theorem claim : Cert.Claim := ⟨Cert.Kernel.Gen.facts, Cert.KernelIdeal.Gen.facts, Cert.ReferenceIdeal.Gen.facts, Cert.Pre_finite_inputs.Gen.facts, frame_k, frame_ki, frame_ri, preserves, algebraic⟩

end Cert.Proof

end
